-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x640000 : Shape := ⟨2, ![2, 640000]⟩
abbrev S256x128 : Shape := ⟨2, ![256, 128]⟩
abbrev S128 : Shape := ⟨1, ![128]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_v28 : IVec S_ 1) (main_v33 : IVec S2x640000 1) : IVec S_ 1 :=
  let main_c_12 : IVec S_ 1 := constantI S_ 1 1#1
  let main_v34 : IVec S_ 1 := (fun x v => Host.reduce IntOp.andi x v reducesTo_S2x640000_S_d0_1 h_S_) main_v33 main_c_12
  let main_v35 : IVec S_ 1 := andi main_v28 main_v34
  main_v35

def fn_part1 {F : FTy → Type} [FloatOps F] (main_arg2 : IVec S2x640000 32) (main_arg5 : FVec F S256x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S2x640000 32 := broadcastInDim S2x640000 ![] bcast_S_S2x640000 main_c_10
  let main_v30 : IVec S2x640000 1 := cmpi .sge main_arg2 main_v29
  let main_c_11 : IVec S_ 32 := constantI S_ 32 20000#32
  let main_v31 : IVec S2x640000 32 := broadcastInDim S2x640000 ![] bcast_S_S2x640000 main_c_11
  let main_v32 : IVec S2x640000 1 := cmpi .slt main_arg2 main_v31
  let main_v33 : IVec S2x640000 1 := andi main_v30 main_v32
  fn_part2 (F := F) main_v28 main_v33

def fn {F : FTy → Type} [FloatOps F] (main_arg0 : FVec F S20000x256 .f32) (main_arg1 : FVec F S20000x256 .f32) (main_arg2 : IVec S2x640000 32) (main_arg3 : FVec F S256x128 .f32) (main_arg4 : FVec F S128 .f32) (main_arg5 : FVec F S256x128 .f32) (main_arg6 : FVec F S128 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S20000x256 .f32 := Host.absf main_arg1
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_v13 main_v16
-- ==== Kernel.lean ====
abbrev S20000x256 : Shape := ⟨2, ![20000, 256]⟩
abbrev S2x640000 : Shape := ⟨2, ![2, 640000]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S1x128 : Shape := ⟨2, ![1, 128]⟩
abbrev S20000x128 : Shape := ⟨2, ![20000, 128]⟩
abbrev S2000x256 : Shape := ⟨2, ![2000, 256]⟩
abbrev S2000x128 : Shape := ⟨2, ![2000, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S4000x128 : Shape := ⟨2, ![4000, 128]⟩
abbrev S4000x1 : Shape := ⟨2, ![4000, 1]⟩
abbrev S4000 : Shape := ⟨1, ![4000]⟩

abbrev nBuf : Space → Nat
  | .hbm => 86
  | .vmem => 18
  | .smem => 0
  | _ => 0

abbrev bufTy : (tb : Table) → Fin (tcTables nBuf tb) → BufTy
  | .hbm, ⟨0, _⟩ => ⟨S20000x256, .f32⟩
  | .hbm, ⟨1, _⟩ => ⟨S20000x256, .f32⟩
  | .hbm, ⟨2, _⟩ => ⟨S2x640000, .i32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S1x128, .f32⟩
  | .hbm, ⟨12, _⟩ => ⟨S20000x128, .f32⟩
  | .hbm, ⟨13, _⟩ => ⟨S1x128, .f32⟩
  | .hbm, ⟨14, _⟩ => ⟨S20000x128, .f32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S1, .i32⟩
  | .hbm, ⟨24, _⟩ => ⟨S_, .i32⟩
  | .hbm, ⟨25, _⟩ => ⟨S640000x1, .i32⟩
  | .hbm, ⟨26, _⟩ => ⟨S640000x1, .i1⟩
  | .hbm, ⟨27, _⟩ => ⟨S1x1, .i32⟩
  | .hbm, ⟨28, _⟩ => ⟨S640000x1, .i32⟩
  | .hbm, ⟨29, _⟩ => ⟨S640000x1, .i1⟩
  | .hbm, ⟨30, _⟩ => ⟨S640000x1, .i1⟩
  | .hbm, ⟨31, _⟩ => ⟨S_, .i1⟩
  | .hbm, ⟨32, _⟩ => ⟨S640000, .i1⟩
  | .hbm, ⟨33, _⟩ => ⟨S640000x128, .f32⟩
  | .hbm, ⟨34, _⟩ => ⟨S640000x128, .i1⟩
  | .hbm, ⟨35, _⟩ => ⟨S_, .f32⟩
  | .hbm, ⟨36, _⟩ => ⟨S640000x128, .f32⟩
  | .hbm, ⟨37, _⟩ => ⟨S640000x128, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S1, .i32⟩
  | .hbm, ⟨47, _⟩ => ⟨S_, .i32⟩
  | .hbm, ⟨48, _⟩ => ⟨S640000x1, .i32⟩
  | .hbm, ⟨49, _⟩ => ⟨S640000x1, .i1⟩
  | .hbm, ⟨50, _⟩ => ⟨S1x1, .i32⟩
  | .hbm, ⟨51, _⟩ => ⟨S640000x1, .i32⟩
  | .hbm, ⟨52, _⟩ => ⟨S640000x1, .i1⟩
  | .hbm, ⟨53, _⟩ => ⟨S640000x1, .i1⟩
  | .hbm, ⟨54, _⟩ => ⟨S_, .i1⟩
  | .hbm, ⟨55, _⟩ => ⟨S640000, .i1⟩
  | .hbm, ⟨56, _⟩ => ⟨S640000x128, .f32⟩
  | .hbm, ⟨57, _⟩ => ⟨S640000x128, .i1⟩
  | .hbm, ⟨58, _⟩ => ⟨S_, .f32⟩
  | .hbm, ⟨59, _⟩ => ⟨S640000x128, .f32⟩
  | .hbm, ⟨60, _⟩ => ⟨S640000x128, .f32⟩
  | .hbm, ⟨61, _⟩ => ⟨S640000x1, .f32⟩
  | .hbm, ⟨62, _⟩ => ⟨S_, .f32⟩
  | .hbm, ⟨63, _⟩ => ⟨S_, .f32⟩
  | .hbm, ⟨64, _⟩ => ⟨S640000x1, .f32⟩
  | .hbm, ⟨65, _⟩ => ⟨S640000x1, .f32⟩
  | .hbm, ⟨66, _⟩ => ⟨S640000x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S640000x1, .f32⟩
  | .hbm, ⟨72, _⟩ => ⟨S640000x1, .f32⟩
  | .hbm, ⟨73, _⟩ => ⟨S640000x128, .f32⟩
  | .hbm, ⟨74, _⟩ => ⟨S640000x128, .f32⟩
  | .hbm, ⟨75, _⟩ => ⟨S_, .f32⟩
  | .hbm, ⟨76, _⟩ => ⟨S20000x128, .f32⟩
  | .hbm, ⟨77, _⟩ => ⟨S_, .i32⟩
  | .hbm, ⟨78, _⟩ => ⟨S640000, .i32⟩
  | .hbm, ⟨79, _⟩ => ⟨S640000, .i1⟩
  | .hbm, ⟨80, _⟩ => ⟨S_, .i32⟩
  | .hbm, ⟨81, _⟩ => ⟨S640000, .i32⟩
  | .hbm, ⟨82, _⟩ => ⟨S640000, .i32⟩
  | .hbm, ⟨83, _⟩ => ⟨S640000, .i32⟩
  | .hbm, ⟨84, _⟩ => ⟨S640000x1, .i32⟩
  | .hbm, ⟨85, _⟩ => ⟨S20000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x256, .f32⟩
  | .local _ .vmem, ⟨7, _⟩ => ⟨S2000x256, .f32⟩
  | .local _ .vmem, ⟨8, _⟩ => ⟨S256x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x1, .f32⟩
  | .local _ .vmem, ⟨17, _⟩ => ⟨S4000x1, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v8 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v9 : Ref sig .tc := ⟨.hbm, 60, rfl⟩
abbrev main_v10 : Ref sig .tc := ⟨.hbm, 61, rfl⟩
abbrev main_cst : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_cst_0 : Ref sig .tc := ⟨.hbm, 67, rfl⟩
abbrev main_v15 : Ref sig .tc := ⟨.hbm, 68, rfl⟩
abbrev main_cst_1 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_cst_2 : Ref sig .tc := ⟨.hbm, 75, rfl⟩
abbrev main_v21 : Ref sig .tc := ⟨.hbm, 76, rfl⟩
abbrev main_c : Ref sig .tc := ⟨.hbm, 77, rfl⟩
abbrev main_v22 : Ref sig .tc := ⟨.hbm, 78, rfl⟩
abbrev main_v23 : Ref sig .tc := ⟨.hbm, 79, rfl⟩
abbrev main_c_3 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S4000x128_S4000 : S4000x128.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  reducesTo_S640000x1_S_d0_1 : S640000x1.ReducesTo [0, 1] S_
  bcast_S640000x1_S640000x128_0_1 : S640000x1.BroadcastsInDim S640000x128 (![0, 1] : Fin 2 → Fin S640000x128.rank)
  bcast_S_S20000x128 : S_.BroadcastsInDim S20000x128 (![] : Fin 0 → Fin S20000x128.rank)
  dot_S2000x256_S256x128_S2000x128_1_0_0_1_n_n_wf : DotDims.WF S2000x256 S256x128 S2000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .f32 = 32 ∨ (Rect.block (s := S20000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .f32 = 32 ∨ (Rect.block (s := S20000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S640000x128.size a
  hwx2_0 : ∀ i : grid2.Coords, EltTy.bits .f32 = 32 ∨ (Rect.block (s := S640000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S640000x128.size a
  hwx2_1 : ∀ i : grid2.Coords, EltTy.bits .f32 = 32 ∨ (Rect.block (s := S640000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S640000x1.size a
  hwx2_2 : ∀ i : grid2.Coords, EltTy.bits .f32 = 32 ∨ (Rect.block (s := S640000x1) S4000x1.size (cc2_transform_2 i) (hinb2_2 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S4000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S20000x256 : Shape := ⟨2, ![20000, 256]⟩
abbrev S2x640000 : Shape := ⟨2, ![2, 640000]⟩
abbrev S256x128 : Shape := ⟨2, ![256, 128]⟩
abbrev S128 : Shape := ⟨1, ![128]⟩
abbrev S20000x128 : Shape := ⟨2, ![20000, 128]⟩
abbrev S1x128 : Shape := ⟨2, ![1, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1 : Shape := ⟨1, ![1]⟩

abbrev nBuf : Space → Nat
  | .hbm => 69
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S20000x256, .f32⟩
  | .hbm, ⟨2, _⟩ => ⟨S2x640000, .i32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S20000x128, .f32⟩
  | .hbm, ⟨8, _⟩ => ⟨S1x128, .f32⟩
  | .hbm, ⟨9, _⟩ => ⟨S20000x128, .f32⟩
  | .hbm, ⟨10, _⟩ => ⟨S20000x128, .f32⟩
  | .hbm, ⟨11, _⟩ => ⟨S20000x128, .f32⟩
  | .hbm, ⟨12, _⟩ => ⟨S1x128, .f32⟩
  | .hbm, ⟨13, _⟩ => ⟨S20000x128, .f32⟩
  | .hbm, ⟨14, _⟩ => ⟨S20000x128, .f32⟩
  | .hbm, ⟨15, _⟩ => ⟨S1x640000, .i32⟩
  | .hbm, ⟨16, _⟩ => ⟨S640000, .i32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S1x640000, .i32⟩
  | .hbm, ⟨27, _⟩ => ⟨S640000, .i32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .f32⟩
  | .hbm, ⟨37, _⟩ => ⟨S640000x128, .f32⟩
  | .hbm, ⟨38, _⟩ => ⟨S_, .f32⟩
  | .hbm, ⟨39, _⟩ => ⟨S640000, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1, .f32⟩
  | .hbm, ⟨45, _⟩ => ⟨S640000, .f32⟩
  | .hbm, ⟨46, _⟩ => ⟨S640000, .f32⟩
  | .hbm, ⟨47, _⟩ => ⟨S640000, .f32⟩
  | .hbm, ⟨48, _⟩ => ⟨S_, .f32⟩
  | .hbm, ⟨49, _⟩ => ⟨S_, .f32⟩
  | .hbm, ⟨50, _⟩ => ⟨S1, .f32⟩
  | .hbm, ⟨51, _⟩ => ⟨S640000, .f32⟩
  | .hbm, ⟨52, _⟩ => ⟨S640000, .f32⟩
  | .hbm, ⟨53, _⟩ => ⟨S640000x1, .f32⟩
  | .hbm, ⟨54, _⟩ => ⟨S640000x128, .f32⟩
  | .hbm, ⟨55, _⟩ => ⟨S640000x128, .f32⟩
  | .hbm, ⟨56, _⟩ => ⟨S_, .f32⟩
  | .hbm, ⟨57, _⟩ => ⟨S20000x128, .f32⟩
  | .hbm, ⟨58, _⟩ => ⟨S1x640000, .i32⟩
  | .hbm, ⟨59, _⟩ => ⟨S640000, .i32⟩
  | .hbm, ⟨60, _⟩ => ⟨S_, .i32⟩
  | .hbm, ⟨61, _⟩ => ⟨S640000, .i32⟩
  | .hbm, ⟨62, _⟩ => ⟨S640000, .i1⟩
  | .hbm, ⟨63, _⟩ => ⟨S_, .i32⟩
  | .hbm, ⟨64, _⟩ => ⟨S640000, .i32⟩
  | .hbm, ⟨65, _⟩ => ⟨S640000, .i32⟩
  | .hbm, ⟨66, _⟩ => ⟨S640000, .i32⟩
  | .hbm, ⟨67, _⟩ => ⟨S640000x1, .i32⟩
  | .hbm, ⟨68, _⟩ => ⟨S20000x128, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_7 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  slices_S2x640000_S1x640000_1_0 : S2x640000.Slices ![1, 0] S1x640000
  reducesTo_S640000x128_S640000_d1 : S640000x128.ReducesTo [1] S640000
  h_S_ : 0 < S_.numel
  reducesTo_S640000_S_d0 : S640000.ReducesTo [0] S_
  bcast_S_S1 : S_.BroadcastsInDim S1 (![] : Fin 0 → Fin S1.rank)
  bcast_S1_S640000_0 : S1.BroadcastsInDim S640000 (![0] : Fin 1 → Fin S640000.rank)
  bcast_S640000x1_S640000x128_0_1 : S640000x1.BroadcastsInDim S640000x128 (![0, 1] : Fin 2 → Fin S640000x128.rank)
  bcast_S_S20000x128 : S_.BroadcastsInDim S20000x128 (![] : Fin 0 → Fin S20000x128.rank)
  dot_S20000x256_S256x128_S20000x128_1_0_0_1_n_n_wf : DotDims.WF S20000x256 S256x128 S20000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1

variable [Facts₀]

def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

class Facts : Prop extends Facts₀ where

variable [Facts]
-- ==== Proof.ProjValue0.lean ====
import proofs.«406126_j33930241638752_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # The source-node projection, as one array

The first launch runs over ten blocks of 2000 node rows. At each block the body multiplies the block of features
`[2000, 256]` by the whole weight matrix `[256, 128]` (the operands' change of format is the identity on extended reals,
and the accumulator starts at zero) and adds the bias row `[1, 128]` to every row. Each block is written back to its own
2000 rows of the result, and the ten blocks tile it: the result is, entry by entry, the row of features times the
column of weights, plus the bias entry of that column. -/

noncomputable section

namespace Cert.KernelIdeal.Proj0

open Cert.KernelIdeal Cert.KernelIdeal.Gen Idealize.ShloMosaic Idealize.ShloMosaic.TcCoe Idealize.SL.Sem
open Idealize.ShloMosaic.ValueIdx Idealize.ShloMosaic.Pipeline

/-- A node table of 256 features projected to 128 outputs: features times weights, plus the bias row. -/
def proj (X : S20000x256.Idx → EReal) (Wt : S256x128.Idx → EReal) (b : S1x128.Idx → EReal) : S20000x128.Idx → EReal :=
  fun i => (∑ k : Fin 256, X (ix2 (⟨(i 0).val, (i 0).isLt⟩ : Fin 20000) k) * Wt (ix2 k (⟨(i 1).val, (i 1).isLt⟩ : Fin 128)))
    + b (ix2 (0 : Fin 1) (⟨(i 1).val, (i 1).isLt⟩ : Fin 128))

variable (V : (c : Dev nD) → (b : Ref sig .tc) → Buf (Elt Ideal) ((c : Thread nD τ).loc b))

/-! ## The block product at an entry

The product contracts the features' second axis against the weights' first: at output entry `(p, q)` and contraction
coordinate `k` it reads the features at `(p, k)` and the weights at `(k, q)`. -/

/-- The zero offsets, spelt as a constant function. -/
theorem hz : (![0, 0] : Fin 2 → Nat) = fun _ => 0 := funext fun a => by
  match a with
  | ⟨0, _⟩ => rfl
  | ⟨1, _⟩ => rfl

/-- The left operand's row coordinate is the output's row. -/
theorem lhs_blk_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- The left operand's column coordinate is the contraction coordinate. -/
theorem lhs_blk_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- The right operand's row coordinate is the contraction coordinate. -/
theorem rhs_blk_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- The right operand's column coordinate is the output's column. -/
theorem rhs_blk_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The body's result at entry `(p, q)` of a block: the row of the feature block times the column of the weights, summed
    over the 256 features, plus the bias entry of that column (the change of format is the identity on extended reals, the
    accumulator is zero, the bias row is repeated down the rows). -/
theorem pay0_apply (x0 : Vec Ideal S2000x256 .f32) (x1 : Vec Ideal S256x128 .f32) (x2 : Vec Ideal S1x128 .f32)
    (p : Fin 2000) (q : Fin 128) :
    k0_pay1 (F := Ideal) x0 x1 x2 (ix2 p q) = (∑ k : Fin 256, x0 (ix2 p k) * x1 (ix2 k q)) + x2 (ix2 (0 : Fin 1) q) := by
  unfold k0_pay1
  rw [addf_apply, shapeCast_self, broadcastTo_1b_ab_apply]
  congr 1
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_blk_0 _ _
    | ⟨1, _⟩ => exact (lhs_blk_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_blk_0 _ _).trans hk
    | ⟨1, _⟩ => exact rhs_blk_1 _ _)
  rw [el, er]
  rfl

/-! ## From blocks to the array -/

/-- A block entry of the product is the projection's entry, once each operand block's entries are the arrays' entries
    the projection reads there. -/
theorem pay0_proj (X : S20000x256.Idx → EReal) (Wt : S256x128.Idx → EReal) (b : S1x128.Idx → EReal)
    (x0 : Vec Ideal S2000x256 .f32) (x1 : Vec Ideal S256x128 .f32) (x2 : Vec Ideal S1x128 .f32)
    (i : S20000x128.Idx) (p : Fin 2000) (q : Fin 128)
    (h0 : ∀ k : Fin 256, x0 (ix2 p k) = X (ix2 (⟨(i 0).val, (i 0).isLt⟩ : Fin 20000) k))
    (h1 : ∀ k : Fin 256, x1 (ix2 k q) = Wt (ix2 k (⟨(i 1).val, (i 1).isLt⟩ : Fin 128)))
    (h2 : x2 (ix2 (0 : Fin 1) q) = b (ix2 (0 : Fin 1) (⟨(i 1).val, (i 1).isLt⟩ : Fin 128))) :
    k0_pay1 (F := Ideal) x0 x1 x2 (ix2 p q) = proj X Wt b i := by
  rw [pay0_apply, h2]
  unfold proj
  congr 1
  exact Finset.sum_congr rfl fun k _ => by rw [h0 k, h1 k]

/-- The printed index maps, decided over the ten points: the feature window moves with the output window down the
    rows; the weight and bias windows stay at block zero; the output's column block is zero. -/
theorem idx_facts0 : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) ≤ 9
    ∧ win0_3.index t (1 : Fin 2) = 0 :=
  (by decide +kernel : ∀ t : Fin grid0.N, _)

/-- Every row block of the output is some point's. -/
theorem idx_onto0 : ∀ (q0 : Fin 10), ∃ t : Fin cfg0.N, win0_3.index t = ![q0.val, 0] :=
  (by decide +kernel : ∀ (q0 : Fin 10), ∃ t : Fin grid0.N, win0_3.index t = ![q0.val, 0])

/-- WHAT POINT t WRITES BACK is block t of the projection of the arrays the launch finds. -/
theorem flushed0_eq (c : Dev nD) (t : Fin cfg0.N) :
    (dat0 (F := Ideal) V c).flushed 3 t
      = ((cfg0.win 3).blk t).view.read (Elt Ideal) (proj (V c main_arg0) (V c main_arg3) (V c main_v4)) := by
  show (cfg0.win 3).cut (grid0.coords t) ((dat0 (F := Ideal) V c).after 3 t) = _
  rw [after0_3]
  unfold out0_3
  rw [View.canon_unit_zero hz]
  simp only [View.ld_unit_zero (S := S2000x256) hz, View.ld_unit_zero (S := S256x128) hz, View.ld_unit_zero (S := S1x128) hz]
  obtain ⟨e0, e1, e2, e3, e4, e5, e6, e7⟩ := idx_facts0 t
  funext j
  show k0_pay1 (F := Ideal) (iblk0 V c 0 t) (iblk0 V c 1 t) (iblk0 V c 2 t) ((cfg0.win 3).xinj (grid0.coords t) j)
    = proj (V c main_arg0) (V c main_arg3) (V c main_v4) (((cfg0.win 3).blk t).view.emb j)
  have hx : (cfg0.win 3).xinj (grid0.coords t) j
      = ix2 (⟨(j 0).val, (j 0).isLt⟩ : Fin 2000) (⟨(j 1).val, (j 1).isLt⟩ : Fin 128) :=
    funext fun a => by
      match a with
      | ⟨0, _⟩ => rfl
      | ⟨1, _⟩ => rfl
  rw [hx]
  refine pay0_proj _ _ _ _ _ _ _ _ _ (fun k => ?_) (fun k => ?_) ?_
  · show V c main_arg0 (((cfg0.win 0).blk t).view.emb (ix2 (⟨(j 0).val, (j 0).isLt⟩ : Fin 2000) k)) = _
    congr 1
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 256 + 1 * k.val = k.val; omega
  · show V c main_arg3 (((cfg0.win 1).blk t).view.emb (ix2 k (⟨(j 1).val, (j 1).isLt⟩ : Fin 128))) = _
    congr 1
    funext a; apply Fin.ext
    match a with
    | ⟨0, _⟩ => show win0_1.index t (0 : Fin 2) * 256 + 1 * k.val = k.val; omega
    | ⟨1, _⟩ => show win0_1.index t (1 : Fin 2) * 128 + 1 * (j 1).val = win0_3.index t (1 : Fin 2) * 128 + 1 * (j 1).val; omega
  · show V c main_v4 (((cfg0.win 2).blk t).view.emb (ix2 (0 : Fin 1) (⟨(j 1).val, (j 1).isLt⟩ : Fin 128))) = _
    congr 1
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

/-- An index of the result is in point t's block iff each coordinate is in the block's range on its axis. -/
theorem mem_blk0 (t : Fin cfg0.N) (i : S20000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v5).slice (win0_3.rect t)).set ↔ _
  rw [View.set_slice_whole, Rect.mem_set_unit]
  exact Iff.rfl

/-- The ten row blocks tile the result: row r is in the block of the point whose row block is r / 2000. -/
theorem cover0 (i : S20000x128.Idx) :
    ∃ t : Fin cfg0.N, (cfg0.win 3).flush t = true ∧ i ∈ ((cfg0.win 3).blk t).view.set := by
  have hi0 : (i 0).val < 20000 := (i 0).isLt
  have hi1 : (i 1).val < 128 := (i 1).isLt
  obtain ⟨t, ht⟩ := idx_onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- THE ARRAY the first launch leaves: the projection of the arrays it found on entry. -/
theorem final (c : Dev nD) :
    ((dat0 (F := Ideal) V c).arrAt 3 cfg0.N : S20000x128.Idx → EReal)
      = proj (V c main_arg0) (V c main_arg3) (V c main_v4) :=
  (dat0 (F := Ideal) V c).arrAt_eq_of_cover 3 (proj (V c main_arg0) (V c main_arg3) (V c main_v4))
    (fun t _ => flushed0_eq V c t) cover0

end Cert.KernelIdeal.Proj0

end
-- ==== Proof.ProjValue1.lean ====
import proofs.«406126_j33930241638752_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # The destination-node projection, as one array

The second launch runs over ten blocks of 2000 node rows. At each block the body multiplies the block of features
`[2000, 256]` by the whole weight matrix `[256, 128]` (the operands' change of format is the identity on extended reals,
and the accumulator starts at zero) and adds the bias row `[1, 128]` to every row. Each block is written back to its own
2000 rows of the result, and the ten blocks tile it: the result is, entry by entry, the row of features times the
column of weights, plus the bias entry of that column. -/

noncomputable section

namespace Cert.KernelIdeal.Proj1

open Cert.KernelIdeal Cert.KernelIdeal.Gen Idealize.ShloMosaic Idealize.ShloMosaic.TcCoe Idealize.SL.Sem
open Idealize.ShloMosaic.ValueIdx Idealize.ShloMosaic.Pipeline

/-- A node table of 256 features projected to 128 outputs: features times weights, plus the bias row. -/
def proj (X : S20000x256.Idx → EReal) (Wt : S256x128.Idx → EReal) (b : S1x128.Idx → EReal) : S20000x128.Idx → EReal :=
  fun i => (∑ k : Fin 256, X (ix2 (⟨(i 0).val, (i 0).isLt⟩ : Fin 20000) k) * Wt (ix2 k (⟨(i 1).val, (i 1).isLt⟩ : Fin 128)))
    + b (ix2 (0 : Fin 1) (⟨(i 1).val, (i 1).isLt⟩ : Fin 128))

variable (V : (c : Dev nD) → (b : Ref sig .tc) → Buf (Elt Ideal) ((c : Thread nD τ).loc b))

/-! ## The block product at an entry

The product contracts the features' second axis against the weights' first: at output entry `(p, q)` and contraction
coordinate `k` it reads the features at `(p, k)` and the weights at `(k, q)`. -/

/-- The zero offsets, spelt as a constant function. -/
theorem hz : (![0, 0] : Fin 2 → Nat) = fun _ => 0 := funext fun a => by
  match a with
  | ⟨0, _⟩ => rfl
  | ⟨1, _⟩ => rfl

/-- The left operand's row coordinate is the output's row. -/
theorem lhs_blk_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- The left operand's column coordinate is the contraction coordinate. -/
theorem lhs_blk_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- The right operand's row coordinate is the contraction coordinate. -/
theorem rhs_blk_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- The right operand's column coordinate is the output's column. -/
theorem rhs_blk_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The body's result at entry `(p, q)` of a block: the row of the feature block times the column of the weights, summed
    over the 256 features, plus the bias entry of that column (the change of format is the identity on extended reals, the
    accumulator is zero, the bias row is repeated down the rows). -/
theorem pay1_apply (x0 : Vec Ideal S2000x256 .f32) (x1 : Vec Ideal S256x128 .f32) (x2 : Vec Ideal S1x128 .f32)
    (p : Fin 2000) (q : Fin 128) :
    k1_pay1 (F := Ideal) x0 x1 x2 (ix2 p q) = (∑ k : Fin 256, x0 (ix2 p k) * x1 (ix2 k q)) + x2 (ix2 (0 : Fin 1) q) := by
  unfold k1_pay1
  rw [addf_apply, shapeCast_self, broadcastTo_1b_ab_apply]
  congr 1
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_blk_0 _ _
    | ⟨1, _⟩ => exact (lhs_blk_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_blk_0 _ _).trans hk
    | ⟨1, _⟩ => exact rhs_blk_1 _ _)
  rw [el, er]
  rfl

/-! ## From blocks to the array -/

/-- A block entry of the product is the projection's entry, once each operand block's entries are the arrays' entries
    the projection reads there. -/
theorem pay1_proj (X : S20000x256.Idx → EReal) (Wt : S256x128.Idx → EReal) (b : S1x128.Idx → EReal)
    (x0 : Vec Ideal S2000x256 .f32) (x1 : Vec Ideal S256x128 .f32) (x2 : Vec Ideal S1x128 .f32)
    (i : S20000x128.Idx) (p : Fin 2000) (q : Fin 128)
    (h0 : ∀ k : Fin 256, x0 (ix2 p k) = X (ix2 (⟨(i 0).val, (i 0).isLt⟩ : Fin 20000) k))
    (h1 : ∀ k : Fin 256, x1 (ix2 k q) = Wt (ix2 k (⟨(i 1).val, (i 1).isLt⟩ : Fin 128)))
    (h2 : x2 (ix2 (0 : Fin 1) q) = b (ix2 (0 : Fin 1) (⟨(i 1).val, (i 1).isLt⟩ : Fin 128))) :
    k1_pay1 (F := Ideal) x0 x1 x2 (ix2 p q) = proj X Wt b i := by
  rw [pay1_apply, h2]
  unfold proj
  congr 1
  exact Finset.sum_congr rfl fun k _ => by rw [h0 k, h1 k]

/-- The printed index maps, decided over the ten points: the feature window moves with the output window down the
    rows; the weight and bias windows stay at block zero; the output's column block is zero. -/
theorem idx_facts1 : ∀ t : Fin cfg1.N,
    win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) ≤ 9
    ∧ win1_3.index t (1 : Fin 2) = 0 :=
  (by decide +kernel : ∀ t : Fin grid1.N, _)

/-- Every row block of the output is some point's. -/
theorem idx_onto1 : ∀ (q0 : Fin 10), ∃ t : Fin cfg1.N, win1_3.index t = ![q0.val, 0] :=
  (by decide +kernel : ∀ (q0 : Fin 10), ∃ t : Fin grid1.N, win1_3.index t = ![q0.val, 0])

/-- WHAT POINT t WRITES BACK is block t of the projection of the arrays the launch finds. -/
theorem flushed1_eq (c : Dev nD) (t : Fin cfg1.N) :
    (dat1 (F := Ideal) V c).flushed 3 t
      = ((cfg1.win 3).blk t).view.read (Elt Ideal) (proj (V c main_arg1) (V c main_arg5) (V c main_v6)) := by
  show (cfg1.win 3).cut (grid1.coords t) ((dat1 (F := Ideal) V c).after 3 t) = _
  rw [after1_3]
  unfold out1_3
  rw [View.canon_unit_zero hz]
  simp only [View.ld_unit_zero (S := S2000x256) hz, View.ld_unit_zero (S := S256x128) hz, View.ld_unit_zero (S := S1x128) hz]
  obtain ⟨e0, e1, e2, e3, e4, e5, e6, e7⟩ := idx_facts1 t
  funext j
  show k1_pay1 (F := Ideal) (iblk1 V c 0 t) (iblk1 V c 1 t) (iblk1 V c 2 t) ((cfg1.win 3).xinj (grid1.coords t) j)
    = proj (V c main_arg1) (V c main_arg5) (V c main_v6) (((cfg1.win 3).blk t).view.emb j)
  have hx : (cfg1.win 3).xinj (grid1.coords t) j
      = ix2 (⟨(j 0).val, (j 0).isLt⟩ : Fin 2000) (⟨(j 1).val, (j 1).isLt⟩ : Fin 128) :=
    funext fun a => by
      match a with
      | ⟨0, _⟩ => rfl
      | ⟨1, _⟩ => rfl
  rw [hx]
  refine pay1_proj _ _ _ _ _ _ _ _ _ (fun k => ?_) (fun k => ?_) ?_
  · show V c main_arg1 (((cfg1.win 0).blk t).view.emb (ix2 (⟨(j 0).val, (j 0).isLt⟩ : Fin 2000) k)) = _
    congr 1
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 256 + 1 * k.val = k.val; omega
  · show V c main_arg5 (((cfg1.win 1).blk t).view.emb (ix2 k (⟨(j 1).val, (j 1).isLt⟩ : Fin 128))) = _
    congr 1
    funext a; apply Fin.ext
    match a with
    | ⟨0, _⟩ => show win1_1.index t (0 : Fin 2) * 256 + 1 * k.val = k.val; omega
    | ⟨1, _⟩ => show win1_1.index t (1 : Fin 2) * 128 + 1 * (j 1).val = win1_3.index t (1 : Fin 2) * 128 + 1 * (j 1).val; omega
  · show V c main_v6 (((cfg1.win 2).blk t).view.emb (ix2 (0 : Fin 1) (⟨(j 1).val, (j 1).isLt⟩ : Fin 128))) = _
    congr 1
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index of the result is in point t's block iff each coordinate is in the block's range on its axis. -/
theorem mem_blk1 (t : Fin cfg1.N) (i : S20000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v7).slice (win1_3.rect t)).set ↔ _
  rw [View.set_slice_whole, Rect.mem_set_unit]
  exact Iff.rfl

/-- The ten row blocks tile the result: row r is in the block of the point whose row block is r / 2000. -/
theorem cover1 (i : S20000x128.Idx) :
    ∃ t : Fin cfg1.N, (cfg1.win 3).flush t = true ∧ i ∈ ((cfg1.win 3).blk t).view.set := by
  have hi0 : (i 0).val < 20000 := (i 0).isLt
  have hi1 : (i 1).val < 128 := (i 1).isLt
  obtain ⟨t, ht⟩ := idx_onto1 ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk1]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 128 ≤ (i 1).val ∧ (i 1).val < win1_3.index t (1 : Fin 2) * 128 + 128
    omega

/-- THE ARRAY the second launch leaves: the projection of the arrays it found on entry. -/
theorem final (c : Dev nD) :
    ((dat1 (F := Ideal) V c).arrAt 3 cfg1.N : S20000x128.Idx → EReal)
      = proj (V c main_arg1) (V c main_arg5) (V c main_v6) :=
  (dat1 (F := Ideal) V c).arrAt_eq_of_cover 3 (proj (V c main_arg1) (V c main_arg5) (V c main_v6))
    (fun t _ => flushed1_eq V c t) cover1

end Cert.KernelIdeal.Proj1

end
-- ==== Proof.ScoreValue.lean ====
import proofs.«406126_j33930241638752_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # The per-edge scores, as one array

The third launch runs over 160 blocks of 4000 edges. At each block the body multiplies the two blocks of gathered rows
`[4000, 128]` entry by entry and sums each row over its 128 lanes from zero, giving a column `[4000, 1]`. Each column is
written back to its own 4000 rows of the score column, and the 160 blocks tile it: entry `(e, 0)` of the result is the dot
product of row `e` of the two gathered tables. -/

noncomputable section

namespace Cert.KernelIdeal.Score

open Cert.KernelIdeal Cert.KernelIdeal.Gen Idealize.ShloMosaic Idealize.ShloMosaic.TcCoe Idealize.SL.Sem
open Idealize.ShloMosaic.ValueIdx Idealize.ShloMosaic.Pipeline

/-- The dot product of corresponding rows of two edge tables, as a column. -/
def rowdot (A B : S640000x128.Idx → EReal) : S640000x1.Idx → EReal :=
  fun i => ∑ k : Fin 128, A (ix2 (⟨(i 0).val, (i 0).isLt⟩ : Fin 640000) k) * B (ix2 (⟨(i 0).val, (i 0).isLt⟩ : Fin 640000) k)

/-! ## One block: the column of row sums -/

/-- The zero offsets of a whole-block access, as a constant function. -/
theorem hz : (![0, 0] : Fin 2 → Nat) = fun _ => 0 := funext fun a => by fin_cases a <;> rfl

/-- An `[a]` vector cast to `[a, 1]` reads, at `(i, u)`, the operand at `i`, whatever the unit coordinate `u`:
    both have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- What the body computes from its two loaded blocks, at row `p` of the column: the two casts of a shape to itself do
    nothing, the sum over the lane axis from the zero word is the sum of the 128 products of row `p`, and the cast that
    puts the unit axis back reads it at `p`. -/
theorem pay_apply (x0 x1 : Vec Ideal S4000x128 .f32) (p : Fin 4000) (z : Fin 1) :
    k2_pay1 (F := Ideal) x0 x1 (ix2 p z) = ∑ k : Fin 128, x0 (ix2 p k) * x1 (ix2 p k) := by
  unfold k2_pay1
  rw [shapeCast_self, shapeCast_self]
  rw [shapeCast_a_a1_apply]
  refine (Ideal.multiReduction_add_single (s := S4000x128) (t := S4000) (a := (1 : Fin 2)) (mulf x0 x1) _ reduces_S4000x128_S4000 _ _ (ix1 p)).trans ?_
  show ∑ k : Fin 128, _ = _
  refine Finset.sum_congr rfl fun k _ => ?_
  have hk : reduces_S4000x128_S4000.lift (ix1 p) k = ix2 p k := by
    funext a; apply Fin.ext
    match a with
    | ⟨0, _⟩ => rfl
    | ⟨1, _⟩ => rfl
  rw [hk]; rfl

variable (V : (c : Dev nD) → (b : Ref sig .tc) → Buf (Elt Ideal) ((c : Thread nD τ).loc b))

/-! ## From blocks to the array -/

/-- The three index maps, decided over the 160 points: at point `t` each of the two inputs and the output sits at block
    row `t`, block column 0. -/
theorem idx_facts : ∀ t : Fin cfg2.N, win2_0.index t (0 : Fin 2) = win2_2.index t (0 : Fin 2)
    ∧ win2_0.index t (1 : Fin 2) = 0
    ∧ win2_1.index t (0 : Fin 2) = win2_2.index t (0 : Fin 2)
    ∧ win2_1.index t (1 : Fin 2) = 0
    ∧ win2_2.index t (0 : Fin 2) ≤ 159
    ∧ win2_2.index t (1 : Fin 2) = 0 :=
  (by decide +kernel : ∀ t : Fin grid2.N, _)

/-- Every block row of the score column is some point's. -/
theorem idx_onto : ∀ q : Fin 160, ∃ t : Fin cfg2.N, win2_2.index t = ![q.val, 0] :=
  (by decide +kernel : ∀ q : Fin 160, ∃ t : Fin grid2.N, win2_2.index t = ![q.val, 0])

/-- WHAT POINT `t` WRITES BACK is block `t` of the column of row-wise dot products of the two tables as the launch finds
    them: row `p` of the block is row `4000 t + p` of the column, and the two input blocks hold those same rows. -/
theorem flushed_eq (c : Dev nD) (t : Fin cfg2.N) :
    (dat2 (F := Ideal) V c).flushed 2 t
      = ((cfg2.win 2).blk t).view.read (Elt Ideal) (rowdot (V c main_v8) (V c main_v9)) := by
  show (cfg2.win 2).cut (grid2.coords t) ((dat2 (F := Ideal) V c).after 2 t) = _
  rw [after2_2]
  unfold out2_2
  rw [View.canon_unit_zero hz]
  simp only [View.ld_unit_zero (S := S4000x128) hz]
  obtain ⟨e0, e1, e2, e3, e4, e5⟩ := idx_facts t
  funext j
  have hj0 : (j 0).val < 4000 := (j 0).isLt
  have hj1 : (j 1).val < 1 := (j 1).isLt
  show k2_pay1 (F := Ideal) (iblk2 V c 0 t) (iblk2 V c 1 t) (ix2 (⟨(j 0).val, hj0⟩ : Fin 4000) (⟨(j 1).val, hj1⟩ : Fin 1))
    = rowdot (V c main_v8) (V c main_v9) (((cfg2.win 2).blk t).view.emb j)
  rw [pay_apply]
  unfold rowdot
  refine Finset.sum_congr rfl fun k _ => ?_
  have h0 : ((cfg2.win 0).blk t).view.emb (ix2 (⟨(j 0).val, hj0⟩ : Fin 4000) k)
      = ix2 (⟨((((cfg2.win 2).blk t).view.emb j) 0).val, ((((cfg2.win 2).blk t).view.emb j) 0).isLt⟩ : Fin 640000) k := by
    funext a; apply Fin.ext
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 128 + 1 * k.val = k.val; omega
  have h1 : ((cfg2.win 1).blk t).view.emb (ix2 (⟨(j 0).val, hj0⟩ : Fin 4000) k)
      = ix2 (⟨((((cfg2.win 2).blk t).view.emb j) 0).val, ((((cfg2.win 2).blk t).view.emb j) 0).isLt⟩ : Fin 640000) k := by
    funext a; apply Fin.ext
    match a with
    | ⟨0, _⟩ => show win2_1.index t (0 : Fin 2) * 4000 + 1 * (j 0).val = win2_2.index t (0 : Fin 2) * 4000 + 1 * (j 0).val; omega
    | ⟨1, _⟩ => show win2_1.index t (1 : Fin 2) * 128 + 1 * k.val = k.val; omega
  have hm : ∀ (f g : S640000x128.Idx → EReal) (a a' b b' : S640000x128.Idx), a = a' → b = b' → f a * g b = f a' * g b' := by
    intro f g a a' b b' h h'; rw [h, h']
  exact hm (V c main_v8) (V c main_v9) _ _ _ _ h0 h1

/-- An index of the score column is in point `t`'s block iff each coordinate is in the block's range on its axis. -/
theorem mem_blk (t : Fin cfg2.N) (i : S640000x1.Idx) :
    i ∈ ((cfg2.win 2).blk t).view.set ↔ ∀ a : Fin 2, win2_2.index t a * S4000x1.size a ≤ (i a).val
      ∧ (i a).val < win2_2.index t a * S4000x1.size a + S4000x1.size a := by
  show i ∈ ((View.whole main_v10).slice (win2_2.rect t)).set ↔ _
  rw [View.set_slice_whole, Rect.mem_set_unit]
  exact Iff.rfl

/-- The 160 blocks of 4000 rows tile the 640000 rows: row `r` is in the block of point `r / 4000`. -/
theorem covered (i : S640000x1.Idx) :
    ∃ t : Fin cfg2.N, (cfg2.win 2).flush t = true ∧ i ∈ ((cfg2.win 2).blk t).view.set := by
  have hi0 : (i 0).val < 640000 := (i 0).isLt
  have hi1 : (i 1).val < 1 := (i 1).isLt
  obtain ⟨t, ht⟩ := idx_onto ⟨(i 0).val / 4000, by omega⟩
  have q0 : win2_2.index t (0 : Fin 2) = (i 0).val / 4000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 1 ≤ (i 1).val ∧ (i 1).val < win2_2.index t (1 : Fin 2) * 1 + 1; omega

/-- THE ARRAY the third launch leaves: the row-wise dot product of the two gathered tables it found on entry. -/
theorem final (c : Dev nD) :
    ((dat2 (F := Ideal) V c).arrAt 2 cfg2.N : S640000x1.Idx → EReal) = rowdot (V c main_v8) (V c main_v9) := by
  exact (dat2 (F := Ideal) V c).arrAt_eq_of_cover 2 (rowdot (V c main_v8) (V c main_v9)) (fun t _ => flushed_eq V c t) covered

end Cert.KernelIdeal.Score

end
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.LibGatherRow.lean ====
import Idealize.ShloMosaic.PureOps.ShapeOps
import Idealize.ShloMosaic.Lib.ValueIdx

/-! # A gather that takes rows of a table, read at an index

`Host.gather d x idx j = x (d.operandIdx j idx)`: on each operand axis the operand index is the clamped start plus the
batching coordinate plus the offset coordinate. Worked out here, at any extents, for the rows of a rank-2 table: operand
`[N, C]`, start indices `[K, 1]` (the index vector on axis 1), result `[K, C]`; the row axis is gathered (collapsed, one
row per start index) and the column axis is the one offset axis, read whole. Result entry `(k, j)` is the table's entry
`(r, j)` with `r` the start index `idx[k, 0]` read as a SIGNED integer and CLAMPED into `[0, N − 1]`
(`gather_rowTake_apply`); for a start index already inside the table the clamp does nothing
(`gather_rowTake_apply_of_lt`). Both are stated for ANY dimension-number record with these fields, the field equations
taken as hypotheses (each is `rfl` at a literal record), and again at the literal record `rowTakeDims`. -/

namespace Idealize.ShloMosaic.GatherRow

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- The dimension numbers of a row take: operand `[N, C]`, start indices `[K, 1]`, result `[K, C]`; axis 0 of the operand
    is gathered (collapsed, slice size 1), axis 1 is the offset axis (slice size `C`). Their conditions `wf` are decided
    on a program's literal shapes. -/
abbrev rowTakeDims (N K C : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- The operand index of a row take on the row axis: the start index `idx[k, 0]` read signed and clamped into
    `[0, N − 1]` (the axis is in the start index map, its slice size is `1`), with no batching and no offset coordinate
    (the axis is collapsed). -/
theorem operandIdx_row {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (0 : Fin 2) + (rowTakeDims N K C wf).batchCoord (ix2 k j) (0 : Fin 2)
      + (rowTakeDims N K C wf).offCoord (ix2 k j) (0 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowTakeDims N K C wf).startIndexMap from List.mem_singleton.mpr rfl)]
  have hsi : (rowTakeDims N K C wf).siIdx (ix2 k j) ⟨List.idxOf (0 : Fin 2) (rowTakeDims N K C wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The operand index of a row take on the column axis: the result's own column `j` (the axis is the one the offset axis
    reads), with start `0` (the start index map does not name the axis) and no batching coordinate. -/
theorem operandIdx_col {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (1 : Fin 2) + (rowTakeDims N K C wf).batchCoord (ix2 k j) (1 : Fin 2)
      + (rowTakeDims N K C wf).offCoord (ix2 k j) (1 : Fin 2) = j.val := by
  have h10 : (1 : Fin 2) ∉ [(0 : Fin 2)] := by decide
  have hst : (rowTakeDims N K C wf).start (ix2 k j) idx (1 : Fin 2) = 0 := by
    unfold GatherDims.start
    rw [dif_neg (show ¬ (1 : Fin 2) ∈ (rowTakeDims N K C wf).startIndexMap from h10)]
  have hoff : (rowTakeDims N K C wf).offCoord (ix2 k j) (1 : Fin 2) = j.val := by
    unfold GatherDims.offCoord
    rw [dif_pos ((GatherDims.mem_sKept _ _).mpr ⟨h10, List.not_mem_nil⟩)]
    rfl
  rw [GatherDims.batchCoord_eq_zero _ _ _ List.not_mem_nil, hst, hoff, Nat.add_zero, Nat.zero_add]

/-- THE ROW TAKE AT THE LITERAL RECORD, READ AT `(k, j)`: the operand's entry `(r, j)`, `r` the start index `idx[k, 0]`
    read signed and clamped into `[0, N − 1]`: the operand index coordinate by coordinate. -/
theorem gather_rowTakeDims_apply {N K C w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (j : Fin C) :
    Host.gather (rowTakeDims N K C wf) x idx (ix2 k j)
      = x (ix2 ⟨min (idx (ix2 k (0 : Fin 1))).toInt.toNat (N - 1), by omega⟩ j) := by
  unfold Host.gather
  congr 1
  funext a
  refine Fin.ext ?_
  match a with
  | ⟨0, _⟩ => exact operandIdx_row wf idx k j
  | ⟨1, _⟩ => exact operandIdx_col wf idx k j

/-- THE ROW TAKE AT ANY RECORD WITH THESE FIELDS, READ AT `(k, j)`: a record is its fields, so it is the literal one. -/
theorem gather_rowTake_apply {N K C w : Nat} (hN : 0 < N)
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C) :
    Host.gather d x idx (ix2 k j)
      = x (ix2 ⟨min (idx (ix2 k (0 : Fin 1))).toInt.toNat (N - 1), by omega⟩ j) := by
  obtain ⟨od, cd, ob, sb, sm, iv, ss, wf⟩ := d
  simp only at ho hc hb hsb hm hv hs
  subst ho hc hb hsb hm hv hs
  exact gather_rowTakeDims_apply hN wf x idx k j

/-- The same for a start index inside the table: the clamp does nothing, and the row read is the one the index names. -/
theorem gather_rowTake_apply_of_lt {N K C w : Nat}
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C)
    (h0 : 0 ≤ (idx (ix2 k (0 : Fin 1))).toInt) (hlt : (idx (ix2 k (0 : Fin 1))).toInt < (N : Int)) :
    Host.gather d x idx (ix2 k j) = x (ix2 ⟨(idx (ix2 k (0 : Fin 1))).toInt.toNat, by omega⟩ j) := by
  rw [gather_rowTake_apply (by omega) d ho hc hb hsb hm hv hs x idx k j]
  congr 2
  exact Fin.ext (clamp_of_lt _ h0 hlt)

end

end Idealize.ShloMosaic.GatherRow
-- ==== Proof.TakeRows.lean ====
import Idealize.ShloMosaic.PureOps
import Idealize.ShloMosaic.PureOps.Ideal
import Idealize.ShloMosaic.Lib.ValueIdx
import Idealize.ShloMosaic.Lib.Pipeline.Value
import Idealize.ShloMosaic.Lib.StableHlo.Predicate
import proofs.«406126_j33930241638752_3_alg».proof.Proof.LibRealSums
import proofs.«406126_j33930241638752_3_alg».proof.Proof.LibGatherRow

/-! # Taking rows of a node table by edge endpoints

An endpoint vector `s` names, per edge, a row of a node table `x : [20000, 128]`. The row index is first wrapped (a negative
index counts from the end: `s + 20000`), and the rows are gathered. One program then replaces every gathered row whose
wrapped index is outside `[0, 19999]` by a fill value; the other does not. For endpoints that are node numbers,
`0 ≤ s e < 20000`, nothing is wrapped and nothing is filled: the two agree, and every gathered entry is an entry of the
table. -/

noncomputable section

namespace Cert.TakeRows

open Idealize.ShloMosaic Idealize.ShloMosaic.ValueIdx Idealize.ShloMosaic.RealSums

abbrev SN : Shape := ⟨2, ![20000, 128]⟩
abbrev SE : Shape := ⟨1, ![640000]⟩
abbrev SE1 : Shape := ⟨2, ![640000, 1]⟩
abbrev SEC : Shape := ⟨2, ![640000, 128]⟩
abbrev S0 : Shape := ⟨0, ![]⟩
abbrev S1 : Shape := ⟨1, ![1]⟩
abbrev S11 : Shape := ⟨2, ![1, 1]⟩

/-- The wrapped row indices as a column: a negative index counts from the end of the table. -/
def wrapCol (hb0E : S0.BroadcastsInDim SE (![] : Fin 0 → Fin SE.rank)) (hbE1 : SE.BroadcastsInDim SE1 (![0] : Fin 1 → Fin SE1.rank))
    (s : IVec SE 32) : IVec SE1 32 :=
  broadcastInDim SE1 ![0] hbE1
    (select (cmpi .slt s (broadcastInDim SE ![] hb0E (constantI S0 32 0#32)))
      (addi s (broadcastInDim SE ![] hb0E (constantI S0 32 20000#32))) s)

/-- The rows taken with the fill: a gathered row is kept where its wrapped index is inside the table and replaced by
    the fill value elsewhere. -/
def takeFill (d : GatherDims SN SE1 SEC)
    (hb0E : S0.BroadcastsInDim SE (![] : Fin 0 → Fin SE.rank)) (hbE1 : SE.BroadcastsInDim SE1 (![0] : Fin 1 → Fin SE1.rank))
    (hb01 : S0.BroadcastsInDim SE1 (![] : Fin 0 → Fin SE1.rank)) (hb1 : S1.BroadcastsInDim S11 (![1] : Fin 1 → Fin S11.rank))
    (hb11 : S11.BroadcastsInDim SE1 (![0, 1] : Fin 2 → Fin SE1.rank)) (hr : SE1.ReducesTo [1] SE) (h0 : 0 < S0.numel)
    (hbEC : SE.BroadcastsInDim SEC (![0] : Fin 1 → Fin SEC.rank)) (hb0C : S0.BroadcastsInDim SEC (![] : Fin 0 → Fin SEC.rank))
    (x : FVec Ideal SN .f32) (s : IVec SE 32) : FVec Ideal SEC .f32 :=
  select
    (broadcastInDim SEC ![0] hbEC
      (Host.reduce IntOp.andi
        (andi (cmpi .sge (wrapCol hb0E hbE1 s) (broadcastInDim SE1 ![] hb01 (constantI S0 32 0#32)))
          (cmpi .sle (wrapCol hb0E hbE1 s) (broadcastInDim SE1 ![0, 1] hb11 (broadcastInDim S11 ![1] hb1 (constantI S1 32 19999#32)))))
        (constantI S0 1 1#1) hr h0))
    (Host.gather d x (wrapCol hb0E hbE1 s))
    (broadcastInDim SEC ![] hb0C (constant (F := Ideal) S0 .f32 0x7FC00000#32))

/-- A one-bit word made from a Boolean is 1 exactly when the Boolean holds. -/
theorem ofBool_eq_one {b : Bool} : BitVec.ofBool b = 1#1 ↔ b = true := by cases b <;> decide

/-- The signed comparisons, read as inequalities between the words' signed values. -/
theorem cmpi_slt_iff {w : Nat} {a b : BitVec w} : IntOp.cmpi .slt a b = 1#1 ↔ a.toInt < b.toInt := by
  simp only [IntOp.cmpi, ofBool_eq_one, BitVec.slt_iff_toInt_lt]

theorem cmpi_sle_iff {w : Nat} {a b : BitVec w} : IntOp.cmpi .sle a b = 1#1 ↔ a.toInt ≤ b.toInt := by
  simp only [IntOp.cmpi, ofBool_eq_one, BitVec.sle_iff_toInt_le]

theorem cmpi_sge_iff {w : Nat} {a b : BitVec w} : IntOp.cmpi .sge a b = 1#1 ↔ b.toInt ≤ a.toInt := by
  simp only [IntOp.cmpi, ofBool_eq_one, BitVec.sle_iff_toInt_le]

/-- A conjunction bit is 1 exactly when both bits are. -/
theorem andi_eq_one_iff {c d : BitVec 1} : IntOp.andi c d = 1#1 ↔ c = 1#1 ∧ d = 1#1 := by revert c d; decide

/-- A left fold by `and` from the bit 1 over bits that are all 1 is 1. -/
theorem foldl_andi_of_all_one {ι : Type} (f : ι → BitVec 1) :
    ∀ (l : List ι), (∀ n ∈ l, f n = 1#1) → l.foldl (fun r n => IntOp.andi r (f n)) 1#1 = 1#1
  | [], _ => rfl
  | a :: l, h => by
    have ha : f a = 1#1 := h a List.mem_cons_self
    have h11 : IntOp.andi (1#1 : BitVec 1) 1#1 = 1#1 := by decide
    rw [List.foldl_cons, ha, h11]
    exact foldl_andi_of_all_one f l (fun n hn => h n (List.mem_cons_of_mem _ hn))

/-- For node numbers nothing is wrapped: no entry of `s` is negative, so the select keeps `s`. -/
theorem wrap_apply (hb0E : S0.BroadcastsInDim SE (![] : Fin 0 → Fin SE.rank)) (s : IVec SE 32)
    (hrange : ∀ e, 0 ≤ (s e).toInt ∧ (s e).toInt < 20000) (k : SE.Idx) :
    select (cmpi .slt s (broadcastInDim SE ![] hb0E (constantI S0 32 0#32)))
      (addi s (broadcastInDim SE ![] hb0E (constantI S0 32 20000#32))) s k = s k := by
  rw [select_apply]
  have hnot : ¬ cmpi .slt s (broadcastInDim SE ![] hb0E (constantI S0 32 0#32)) k = 1#1 := by
    intro h
    have h' : IntOp.cmpi .slt (s k) 0#32 = 1#1 := h
    rw [cmpi_slt_iff] at h'
    have h1 := (hrange k).1
    have h0 : (0#32 : BitVec 32).toInt = 0 := by decide
    omega
  rw [eq_zero_of_ne_one hnot, select_zero]

/-- So the wrapped column holds, at each of its entries, an entry of `s` itself. -/
theorem wrapCol_apply (hb0E : S0.BroadcastsInDim SE (![] : Fin 0 → Fin SE.rank)) (hbE1 : SE.BroadcastsInDim SE1 (![0] : Fin 1 → Fin SE1.rank))
    (s : IVec SE 32) (hrange : ∀ e, 0 ≤ (s e).toInt ∧ (s e).toInt < 20000) (i : SE1.Idx) :
    ∃ e, wrapCol hb0E hbE1 s i = s e := by
  unfold wrapCol broadcastInDim
  exact ⟨_, wrap_apply hb0E s hrange _⟩

/-- FOR NODE NUMBERS NOTHING IS FILLED: the rows taken with the fill are the gathered rows. The dimension-number record is
    any one with a row take's fields (each equation is `rfl` at a literal record). -/
theorem takeFill_eq_gather (d : GatherDims SN SE1 SEC)
    (ho : d.offsetDims = [1]) (hc : d.collapsedSliceDims = [0]) (hbt : d.operandBatchingDims = [])
    (hsb : d.startIndicesBatchingDims = []) (hm : d.startIndexMap = [0]) (hv : d.indexVectorDim = 1)
    (hs : d.sliceSizes = ![1, 128])
    (hb0E : S0.BroadcastsInDim SE (![] : Fin 0 → Fin SE.rank)) (hbE1 : SE.BroadcastsInDim SE1 (![0] : Fin 1 → Fin SE1.rank))
    (hb01 : S0.BroadcastsInDim SE1 (![] : Fin 0 → Fin SE1.rank)) (hb1 : S1.BroadcastsInDim S11 (![1] : Fin 1 → Fin S11.rank))
    (hb11 : S11.BroadcastsInDim SE1 (![0, 1] : Fin 2 → Fin SE1.rank)) (hr : SE1.ReducesTo [1] SE) (h0 : 0 < S0.numel)
    (hbEC : SE.BroadcastsInDim SEC (![0] : Fin 1 → Fin SEC.rank)) (hb0C : S0.BroadcastsInDim SEC (![] : Fin 0 → Fin SEC.rank))
    (x : FVec Ideal SN .f32) (s : IVec SE 32) (hrange : ∀ e, 0 ≤ (s e).toInt ∧ (s e).toInt < 20000) :
    takeFill d hb0E hbE1 hb01 hb1 hb11 hr h0 hbEC hb0C x s = Host.gather d x (wrapCol hb0E hbE1 s) := by
  funext i
  unfold takeFill
  rw [select_apply]
  have hbit : ∀ k : SE1.Idx,
      andi (cmpi .sge (wrapCol hb0E hbE1 s) (broadcastInDim SE1 ![] hb01 (constantI S0 32 0#32)))
        (cmpi .sle (wrapCol hb0E hbE1 s) (broadcastInDim SE1 ![0, 1] hb11 (broadcastInDim S11 ![1] hb1 (constantI S1 32 19999#32)))) k
        = 1#1 := by
    intro k
    obtain ⟨e, he⟩ := wrapCol_apply hb0E hbE1 s hrange k
    have h0 : (0#32 : BitVec 32).toInt = 0 := by decide
    have h9 : (19999#32 : BitVec 32).toInt = 19999 := by decide
    have hr := hrange e
    show IntOp.andi (IntOp.cmpi .sge (wrapCol hb0E hbE1 s k) 0#32) (IntOp.cmpi .sle (wrapCol hb0E hbE1 s k) 19999#32) = 1#1
    rw [he, andi_eq_one_iff, cmpi_sge_iff, cmpi_sle_iff]
    constructor <;> omega
  have hred : ∀ j : SE.Idx, Host.reduce IntOp.andi
      (andi (cmpi .sge (wrapCol hb0E hbE1 s) (broadcastInDim SE1 ![] hb01 (constantI S0 32 0#32)))
        (cmpi .sle (wrapCol hb0E hbE1 s) (broadcastInDim SE1 ![0, 1] hb11 (broadcastInDim S11 ![1] hb1 (constantI S1 32 19999#32)))))
      (constantI S0 1 1#1) hr h0 j = 1#1 := by
    intro j
    rw [Host.reduce_eq_foldl]
    exact foldl_andi_of_all_one _ _ (fun n _ => hbit n)
  have hmask : broadcastInDim SEC ![0] hbEC
      (Host.reduce IntOp.andi
        (andi (cmpi .sge (wrapCol hb0E hbE1 s) (broadcastInDim SE1 ![] hb01 (constantI S0 32 0#32)))
          (cmpi .sle (wrapCol hb0E hbE1 s) (broadcastInDim SE1 ![0, 1] hb11 (broadcastInDim S11 ![1] hb1 (constantI S1 32 19999#32)))))
        (constantI S0 1 1#1) hr h0) i = 1#1 := hred _
  rw [hmask, select_one]

/-- EVERY GATHERED ENTRY IS AN ENTRY OF THE TABLE (the row index is clamped into the table): a table of real numbers
    gathers to real numbers, whatever the indices. -/
theorem gather_isReal (d : GatherDims SN SE1 SEC)
    (ho : d.offsetDims = [1]) (hc : d.collapsedSliceDims = [0]) (hbt : d.operandBatchingDims = [])
    (hsb : d.startIndicesBatchingDims = []) (hm : d.startIndexMap = [0]) (hv : d.indexVectorDim = 1)
    (hs : d.sliceSizes = ![1, 128])
    (x : FVec Ideal SN .f32) (idx : IVec SE1 32) (hx : ∀ j, IsReal (x j)) (i : SEC.Idx) :
    IsReal (Host.gather d x idx i) := by
  have hi : i = ix2 (⟨(i 0).val, idx2_lt0 i⟩ : Fin 640000) (⟨(i 1).val, idx2_lt1 i⟩ : Fin 128) := by
    funext a; match a with | ⟨0, _⟩ => rfl | ⟨1, _⟩ => rfl
  rw [hi, GatherRow.gather_rowTake_apply (by decide) d ho hc hbt hsb hm hv hs x idx]
  exact hx _

end Cert.TakeRows

end
-- ==== Proof.SoftmaxWeights.lean ====
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import proofs.«406126_j33930241638752_3_alg».proof.Proof.LibRealSums
import Mathlib.Data.EReal.Basic
import Mathlib.Data.EReal.Operations
import Mathlib.Data.Finset.Lattice.Fold
import Mathlib.Order.BoundedOrder.Lattice
import Mathlib.Algebra.BigOperators.Group.Finset.Defs
import Mathlib.Algebra.Order.BigOperators.Group.Finset
import Mathlib.Analysis.Complex.Exponential

/-! # The softmax weights over all edges, in two spellings

Scores `sc e`, one per edge. Both programs subtract the maximum score, exponentiate, and normalise by the sum of the
exponentials. One keeps the scores as a column `[E, 1]`, takes the maximum and the sum over both axes, and MULTIPLIES each
exponential by the reciprocal `1 / S`; the other keeps them as a vector `[E]`, takes the maximum along its one axis (and
once more against `-∞`), DIVIDES each exponential by `S`, and only then lays the weights out as a column. For real scores
the two columns are equal: the maxima are the same supremum, the sums the same sum, `S ≥ exp 0 = 1` is not zero, and
dividing by a non-zero `S` is multiplying by `1 / S`. -/

noncomputable section

namespace Cert.Softmax

open Idealize.ShloMosaic Idealize.ShloMosaic.ValueIdx Idealize.ShloMosaic.RealSums

abbrev SE : Shape := ⟨1, ![640000]⟩
abbrev SE1 : Shape := ⟨2, ![640000, 1]⟩
abbrev S0 : Shape := ⟨0, ![]⟩
abbrev S1 : Shape := ⟨1, ![1]⟩

/-- The weights as the column-keeping program computes them from the score column. -/
def weightsCol (hb : S0.BroadcastsInDim SE1 (![] : Fin 0 → Fin SE1.rank)) (hr : SE1.ReducesTo [0, 1] S0) (h0 : 0 < S0.numel)
    (sc : FVec Ideal SE1 .f32) : FVec Ideal SE1 .f32 :=
  mulf
    (Host.exp (subf sc (broadcastInDim SE1 ![] hb (Host.reduce FloatOps.maximumf sc (constant (F := Ideal) S0 .f32 0xFF800000#32) hr h0))))
    (broadcastInDim SE1 ![] hb (Host.divf (constant (F := Ideal) S0 .f32 0x3F800000#32)
      (Host.reduceAdd (Host.exp (subf sc (broadcastInDim SE1 ![] hb (Host.reduce FloatOps.maximumf sc (constant (F := Ideal) S0 .f32 0xFF800000#32) hr h0))))
        (constant (F := Ideal) S0 .f32 0x00000000#32) hr h0)))

/-- The weights as the vector-keeping program computes them from the score vector, laid out as a column at the end. -/
def weightsVec (hb01 : S0.BroadcastsInDim S1 (![] : Fin 0 → Fin S1.rank)) (hb1E : S1.BroadcastsInDim SE (![0] : Fin 1 → Fin SE.rank))
    (hbE1 : SE.BroadcastsInDim SE1 (![0] : Fin 1 → Fin SE1.rank)) (hr : SE.ReducesTo [0] S0) (h0 : 0 < S0.numel)
    (sc : FVec Ideal SE .f32) : FVec Ideal SE1 .f32 :=
  broadcastInDim SE1 ![0] hbE1
    (Host.divf
      (Host.exp (subf sc (broadcastInDim SE ![0] hb1E (broadcastInDim S1 ![] hb01
        (maximumf (constant (F := Ideal) S0 .f32 0xFF800000#32) (Host.reduce FloatOps.maximumf sc (constant (F := Ideal) S0 .f32 0xFF800000#32) hr h0))))))
      (broadcastInDim SE ![0] hb1E (broadcastInDim S1 ![] hb01
        (Host.reduceAdd
          (Host.exp (subf sc (broadcastInDim SE ![0] hb1E (broadcastInDim S1 ![] hb01
            (maximumf (constant (F := Ideal) S0 .f32 0xFF800000#32) (Host.reduce FloatOps.maximumf sc (constant (F := Ideal) S0 .f32 0xFF800000#32) hr h0))))))
          (constant (F := Ideal) S0 .f32 0x00000000#32) hr h0))))

open scoped BigOperators

/-! ## The constant words and the exponential -/

/-- The word `0xFF800000` denotes `-∞`. -/
theorem ofBits_negInf : Ideal.ofBits .f32 0xFF800000#32 = (⊥ : EReal) := by
  simp [Ideal.ofBits, Ideal.ieee]

/-- The word `0x3F800000` denotes `1`. -/
theorem ofBits_one : Ideal.ofBits .f32 0x3F800000#32 = (1 : EReal) := by
  simp [Ideal.ofBits, Ideal.ieee]
  rw [← EReal.coe_mul, ← EReal.coe_one, EReal.coe_eq_coe_iff]
  norm_num

/-- The exponential of an extended real is never negative. -/
theorem exp_nonneg (x : EReal) : 0 ≤ Ideal.exp x := by
  induction x using EReal.rec with
  | bot => exact le_refl (0 : EReal)
  | top => exact le_top
  | coe r => exact EReal.coe_nonneg.2 (Real.exp_pos r).le

/-- A real number less itself exponentiates to one. -/
theorem exp_sub_self {x : EReal} (hx : IsReal x) : Ideal.exp (x - x) = 1 := by
  obtain ⟨r, rfl⟩ := hx
  rw [← EReal.coe_sub, sub_self]
  show ((Real.exp 0 : ℝ) : EReal) = 1
  rw [Real.exp_zero, EReal.coe_one]

/-! ## Suprema and sums over a finite nonempty index set -/

/-- The exponentials of real scores less their supremum sum to at least `exp 0 = 1`: the sum is not zero. -/
theorem sum_exp_ne_zero {ι : Type} [Fintype ι] [Nonempty ι] (f : ι → EReal) (hf : ∀ e, IsReal (f e)) :
    (∑ e, Ideal.exp (f e - Finset.univ.sup f)) ≠ 0 := by
  obtain ⟨e0, -, h0⟩ := Finset.exists_mem_eq_sup Finset.univ Finset.univ_nonempty f
  have h1 : (1 : EReal) ≤ ∑ e, Ideal.exp (f e - Finset.univ.sup f) :=
    calc (1 : EReal) = Ideal.exp (f e0 - Finset.univ.sup f) := by rw [h0, exp_sub_self (hf e0)]
      _ ≤ ∑ e, Ideal.exp (f e - Finset.univ.sup f) :=
        Finset.single_le_sum (f := fun e => Ideal.exp (f e - Finset.univ.sup f)) (fun e _ => exp_nonneg _)
          (Finset.mem_univ e0)
  intro h
  rw [h] at h1
  exact absurd h1 (not_le.2 zero_lt_one)

/-- A supremum over one index set is the supremum over an equivalent one. -/
theorem sup_comp_equiv {ι κ : Type} [Fintype ι] [Fintype κ] (e : ι ≃ κ) (f : κ → EReal) :
    Finset.univ.sup (fun i => f (e i)) = Finset.univ.sup f := by
  apply le_antisymm
  · exact Finset.sup_le fun i _ => Finset.le_sup (f := f) (Finset.mem_univ (e i))
  · refine Finset.sup_le fun k _ => ?_
    have h := Finset.le_sup (f := fun i => f (e i)) (Finset.mem_univ (e.symm k))
    simpa using h

/-! ## The column's indices are the vector's -/

/-- The index `(e, 0)` of the column against the index `e` of the vector. -/
def colEquiv : SE1.Idx ≃ SE.Idx where
  toFun i := ix1 (⟨(i 0).val, idx2_lt0 i⟩ : Fin 640000)
  invFun e := ix2 (⟨(e 0).val, (e 0).isLt⟩ : Fin 640000) (0 : Fin 1)
  left_inv i := by
    funext d
    match d with
    | ⟨0, _⟩ => exact Fin.ext rfl
    | ⟨1, h⟩ => exact Fin.ext (by have h1 : (i ⟨1, h⟩).val < 1 := (i ⟨1, h⟩).isLt; show 0 = (i ⟨1, h⟩).val; omega)
  right_inv e := by
    funext d
    match d with
    | ⟨0, _⟩ => exact Fin.ext rfl

instance : Nonempty SE.Idx := ⟨ix1 (⟨0, by norm_num⟩ : Fin 640000)⟩

/-! ## The two reductions to a scalar -/

/-- A maximum from `-∞` over every axis is the supremum over every index. -/
theorem reduce_max_all {s : Shape} {axes : List (Fin s.rank)} (x : FVec Ideal s .f32) (hr : s.ReducesTo axes S0)
    (h0 : 0 < S0.numel) (j : S0.Idx) :
    Host.reduce FloatOps.maximumf x (constant (F := Ideal) S0 .f32 0xFF800000#32) hr h0 j
      = Finset.univ.sup (x : s.Idx → EReal) := by
  rw [Host.reduce_eq_fold, Finset.filter_true_of_mem fun i _ => funext fun b => b.elim0]
  show Finset.univ.fold max (Ideal.ofBits .f32 0xFF800000#32) x = _
  rw [ofBits_negInf]
  rfl

/-- A sum from `0` over every axis is the sum over every index. -/
theorem reduce_add_all {s : Shape} {axes : List (Fin s.rank)} (x : FVec Ideal s .f32) (hr : s.ReducesTo axes S0)
    (h0 : 0 < S0.numel) (j : S0.Idx) :
    Host.reduceAdd x (constant (F := Ideal) S0 .f32 0x00000000#32) hr h0 j = ∑ i : s.Idx, (x i : EReal) := by
  simp only [Host.reduceAdd, Ideal.hostReduceAdd_def]
  rw [Ideal.hostReduceAdd_total hr (fun b => b.elim0) x _ j]
  show Ideal.ofBits .f32 0x00000000#32 + _ = _
  rw [Ideal.ofBits_zero_f32, zero_add]

/-! ## Broadcasts read at an index -/

/-- A scalar broadcast to any shape reads as the scalar. -/
theorem bcast0_apply {t : Shape} (hb : S0.BroadcastsInDim t (![] : Fin 0 → Fin t.rank)) (y : S0.Idx → EReal)
    (i : t.Idx) (j : S0.Idx) : broadcastInDim t ![] hb y i = y j :=
  broadcastInDim_apply _ hb y i j (fun a => a.elim0)

/-- The one-element vector broadcast along the edges reads as its element. -/
theorem bcast1E_apply (hb1E : S1.BroadcastsInDim SE (![0] : Fin 1 → Fin SE.rank)) (y : S1.Idx → EReal) (e : SE.Idx) :
    broadcastInDim SE ![0] hb1E y e = y (ix1 (0 : Fin 1)) :=
  broadcastInDim_apply _ hb1E y e (ix1 (0 : Fin 1)) (fun a => match a with
    | ⟨0, _⟩ => by show 0 = if (1 : Nat) = 1 then 0 else (e 0).val; rw [if_pos rfl])

/-- A vector laid out as a column reads at `(e, 0)` as the vector at `e`. -/
theorem bcastE1_apply (hbE1 : SE.BroadcastsInDim SE1 (![0] : Fin 1 → Fin SE1.rank)) (y : SE.Idx → EReal) (i : SE1.Idx) :
    broadcastInDim SE1 ![0] hbE1 y i = y (colEquiv i) :=
  broadcastInDim_apply _ hbE1 y i (colEquiv i) (fun a => match a with
    | ⟨0, _⟩ => by show (i 0).val = if (640000 : Nat) = 1 then 0 else (i 0).val; rw [if_neg (by decide)])

/-! ## The pointwise operations read at an index -/

theorem constant_apply {s : Shape} (b : BitVec 32) (i : s.Idx) :
    constant (F := Ideal) s .f32 b i = Ideal.ofBits .f32 b := rfl

theorem maximumf_apply {s : Shape} (x y : FVec Ideal s .f32) (i : s.Idx) : maximumf x y i = max (x i : EReal) (y i) := rfl

theorem mulf_apply {s : Shape} (x y : FVec Ideal s .f32) (i : s.Idx) : mulf x y i = (x i : EReal) * y i := rfl

theorem subf_apply {s : Shape} (x y : FVec Ideal s .f32) (i : s.Idx) : subf x y i = (x i : EReal) - y i := rfl

theorem exp_apply {s : Shape} (x : FVec Ideal s .f32) (i : s.Idx) : Host.exp x i = Ideal.exp (x i) := rfl

theorem divf_apply {s : Shape} (x y : FVec Ideal s .f32) (i : s.Idx) : Host.divf x y i = Ideal.div (x i) (y i) := rfl

/-! ## The two maxima are one supremum -/

theorem max_col_eq (hrC : SE1.ReducesTo [0, 1] S0) (h0 : 0 < S0.numel) (sc : FVec Ideal SE .f32) (j : S0.Idx) :
    Host.reduce FloatOps.maximumf (fun i : SE1.Idx => sc (colEquiv i)) (constant (F := Ideal) S0 .f32 0xFF800000#32) hrC h0 j
      = Finset.univ.sup (sc : SE.Idx → EReal) := by
  rw [reduce_max_all]
  exact sup_comp_equiv colEquiv sc

theorem max_vec_eq (hrV : SE.ReducesTo [0] S0) (h0 : 0 < S0.numel) (sc : FVec Ideal SE .f32) (j : S0.Idx) :
    maximumf (constant (F := Ideal) S0 .f32 0xFF800000#32)
      (Host.reduce FloatOps.maximumf sc (constant (F := Ideal) S0 .f32 0xFF800000#32) hrV h0) j
        = Finset.univ.sup (sc : SE.Idx → EReal) := by
  rw [maximumf_apply, constant_apply, reduce_max_all, ofBits_negInf]
  exact max_bot_left _

/-! ## The exponentials -/

/-- The exponential of each score less the supremum of all scores. -/
def expv (sc : FVec Ideal SE .f32) : SE.Idx → EReal :=
  fun e => Ideal.exp ((sc e : EReal) - Finset.univ.sup (sc : SE.Idx → EReal))

theorem expv_sum_ne_zero (sc : FVec Ideal SE .f32) (hreal : ∀ e, IsReal (sc e)) : (∑ e, expv sc e) ≠ 0 :=
  sum_exp_ne_zero (fun e => (sc e : EReal)) hreal

theorem exp_col_eq (hb : S0.BroadcastsInDim SE1 (![] : Fin 0 → Fin SE1.rank)) (hrC : SE1.ReducesTo [0, 1] S0) (h0 : 0 < S0.numel)
    (sc : FVec Ideal SE .f32) :
    Host.exp (subf (fun i : SE1.Idx => sc (colEquiv i)) (broadcastInDim SE1 ![] hb
      (Host.reduce FloatOps.maximumf (fun i : SE1.Idx => sc (colEquiv i)) (constant (F := Ideal) S0 .f32 0xFF800000#32) hrC h0)))
      = fun i => expv sc (colEquiv i) := by
  funext i
  rw [exp_apply, subf_apply, bcast0_apply hb _ i ix0, max_col_eq]
  rfl

theorem exp_vec_eq (hb01 : S0.BroadcastsInDim S1 (![] : Fin 0 → Fin S1.rank)) (hb1E : S1.BroadcastsInDim SE (![0] : Fin 1 → Fin SE.rank))
    (hrV : SE.ReducesTo [0] S0) (h0 : 0 < S0.numel) (sc : FVec Ideal SE .f32) :
    Host.exp (subf sc (broadcastInDim SE ![0] hb1E (broadcastInDim S1 ![] hb01
      (maximumf (constant (F := Ideal) S0 .f32 0xFF800000#32) (Host.reduce FloatOps.maximumf sc (constant (F := Ideal) S0 .f32 0xFF800000#32) hrV h0)))))
      = expv sc := by
  funext e
  rw [exp_apply, subf_apply, bcast1E_apply, bcast0_apply hb01 _ _ ix0, max_vec_eq]
  rfl

/-- THE TWO SPELLINGS AGREE on real scores: the column of weights computed from the score column `(e, 0) ↦ sc e` is the
    column laid out from the weights computed from the score vector `sc`. -/
theorem weights_eq (hb : S0.BroadcastsInDim SE1 (![] : Fin 0 → Fin SE1.rank)) (hrC : SE1.ReducesTo [0, 1] S0) (h0 : 0 < S0.numel)
    (hb01 : S0.BroadcastsInDim S1 (![] : Fin 0 → Fin S1.rank)) (hb1E : S1.BroadcastsInDim SE (![0] : Fin 1 → Fin SE.rank))
    (hbE1 : SE.BroadcastsInDim SE1 (![0] : Fin 1 → Fin SE1.rank)) (hrV : SE.ReducesTo [0] S0)
    (sc : FVec Ideal SE .f32) (hreal : ∀ e, IsReal (sc e)) :
    weightsCol hb hrC h0 (fun i : SE1.Idx => sc (ix1 (⟨(i 0).val, idx2_lt0 i⟩ : Fin 640000)))
      = weightsVec hb01 hb1E hbE1 hrV h0 sc := by
  have hsc : (fun i : SE1.Idx => sc (ix1 (⟨(i 0).val, idx2_lt0 i⟩ : Fin 640000))) = fun i : SE1.Idx => sc (colEquiv i) := rfl
  rw [hsc]
  unfold weightsCol weightsVec
  rw [exp_col_eq, exp_vec_eq]
  funext i
  rw [mulf_apply, bcastE1_apply, divf_apply, bcast0_apply hb _ i ix0, divf_apply, constant_apply, bcast1E_apply,
    bcast0_apply hb01 _ _ ix0, reduce_add_all, reduce_add_all, ofBits_one, Equiv.sum_comp colEquiv (expv sc)]
  exact (div_eq_mul_div_one _ (expv_sum_ne_zero sc hreal)).symm

end Cert.Softmax

end
-- ==== Proof.KernelFold.lean ====
import proofs.«406126_j33930241638752_3_alg».proof.Proof.Gen.KernelIdeal.Frame
import proofs.«406126_j33930241638752_3_alg».proof.Proof.ProjValue0
import proofs.«406126_j33930241638752_3_alg».proof.Proof.ProjValue1
import proofs.«406126_j33930241638752_3_alg».proof.Proof.ScoreValue
import proofs.«406126_j33930241638752_3_alg».proof.Proof.TakeRows
import proofs.«406126_j33930241638752_3_alg».proof.Proof.SoftmaxWeights
import Idealize.ShloMosaic.Lib.StableHlo.Run
import Idealize.ShloMosaic.PureOps.Ideal

/-! # The whole program's result, read through its segments

The program is eight segments: five stretches of host operations and three launches. What each buffer holds at a
segment boundary is a fold from the launch memory. This module walks the result buffer back through that fold:

* the last stretch scatters the weighted messages into a zero table: the messages are the source rows times the column
  of softmax weights of the scores;
* the scores are what the third launch leaves: the row-wise dot product of the gathered source and destination rows;
* the gathered rows are rows of the two projection tables taken at the edge table's two rows of endpoints (with the
  fill for an index outside the table);
* the projection tables are what the first two launches leave, of the arguments as launched.

A buffer that a segment does not write is carried through it unchanged. -/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-! ## The pieces, as functions of arrays -/

/-- Row 0 of the edge table (the source endpoints), as a vector. -/
def ends0 (a2 : IVec S2x640000 32) : IVec S640000 32 :=
  shapeCast S640000 (extractStridedSlice S1x640000 ![0, 0] a2 slices_S2x640000_S1x640000_0_0) shapeCasts_S1x640000_S640000

/-- Row 1 of the edge table (the destination endpoints), as a vector. -/
def ends1 (a2 : IVec S2x640000 32) : IVec S640000 32 :=
  shapeCast S640000 (extractStridedSlice S1x640000 ![1, 0] a2 slices_S2x640000_S1x640000_1_0) shapeCasts_S1x640000_S640000

/-- A bias vector laid out as one row. -/
def biasRow (a : FVec Ideal S128 .f32) : FVec Ideal S1x128 .f32 := shapeCast S1x128 a shapeCasts_S128_S1x128

/-- Rows of a node table taken at an endpoint vector, with the fill outside the table. -/
def takeRows (x : FVec Ideal S20000x128 .f32) (s : IVec S640000 32) : FVec Ideal S640000x128 .f32 :=
  Cert.TakeRows.takeFill gather_S20000x128_S640000x1_S640000x128_1_0_n_n_0_1_1128 bcast_S_S640000 bcast_S640000_S640000x1_0
    bcast_S_S640000x1 bcast_S1_S1x1_1 bcast_S1x1_S640000x1_0_1 reducesTo_S640000x1_S640000_d1 h_S_ bcast_S640000_S640000x128_0
    bcast_S_S640000x128 x s

/-- The messages: each source row times its edge's softmax weight. -/
def messages (A : FVec Ideal S640000x128 .f32) (SC : FVec Ideal S640000x1 .f32) : FVec Ideal S640000x128 .f32 :=
  mulf A (broadcastInDim S640000x128 ![0, 1] bcast_S640000x1_S640000x128_0_1
    (Cert.Softmax.weightsCol bcast_S_S640000x1 reducesTo_S640000x1_S_d0_1 h_S_ SC))

/-- The messages scattered, by addition, into a zero table at the (wrapped) destination endpoints. -/
def scatterRows (s1 : IVec S640000 32) (M : FVec Ideal S640000x128 .f32) : FVec Ideal S20000x128 .f32 :=
  Host.scatterAdd scatter_S20000x128_S640000x1_S640000x128_1_0_0_1
    (broadcastInDim S20000x128 ![] bcast_S_S20000x128 (constant (F := Ideal) S_ .f32 0x00000000#32))
    (Cert.TakeRows.wrapCol bcast_S_S640000 bcast_S640000_S640000x1_0 s1) M

/-- THE PROGRAM'S RESULT as one function of its seven argument arrays. -/
def value (a0 a1 : FVec Ideal S20000x256 .f32) (a2 : IVec S2x640000 32) (a3 : FVec Ideal S256x128 .f32) (a4 : FVec Ideal S128 .f32)
    (a5 : FVec Ideal S256x128 .f32) (a6 : FVec Ideal S128 .f32) : FVec Ideal S20000x128 .f32 :=
  scatterRows (ends1 a2)
    (messages (takeRows (Proj0.proj a0 a3 (biasRow a4)) (ends0 a2))
      (Score.rowdot (takeRows (Proj0.proj a0 a3 (biasRow a4)) (ends0 a2)) (takeRows (Proj1.proj a1 a5 (biasRow a6)) (ends1 a2))))

variable (m : (ℓ : Loc nD τ sig) → Buf (Elt Ideal) ℓ) (ρ : Dev nD → PrngReg)

/-! ## After the first stretch -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
/-- The source endpoints. -/
theorem W1_v1 (c : Dev nD) : W1 m ρ c (Proc.devRef .tc main_v1) = ends0 (m ((c : Thread nD τ).loc main_arg2)) := by
  show StableHlo.after hostOps0 (W0 m ρ c) (Proc.devRef .tc main_v1) = _
  after_results_simp <;> rfl
/-- The destination endpoints. -/
theorem W1_v3 (c : Dev nD) : W1 m ρ c (Proc.devRef .tc main_v3) = ends1 (m ((c : Thread nD τ).loc main_arg2)) := by
  show StableHlo.after hostOps0 (W0 m ρ c) (Proc.devRef .tc main_v3) = _
  after_results_simp <;> rfl
/-- The source bias as a row. -/
theorem W1_v4 (c : Dev nD) : W1 m ρ c (Proc.devRef .tc main_v4) = biasRow (m ((c : Thread nD τ).loc main_arg4)) := by
  show StableHlo.after hostOps0 (W0 m ρ c) (Proc.devRef .tc main_v4) = _
  after_results_simp <;> rfl

/-! ## After the first launch -/

/-- The source projection table. -/
theorem W2_v5 (c : Dev nD) : W2 m ρ c (Proc.devRef .tc main_v5)
    = Proj0.proj (m ((c : Thread nD τ).loc main_arg0)) (m ((c : Thread nD τ).loc main_arg3)) (biasRow (m ((c : Thread nD τ).loc main_arg4))) := by
  refine (W2_arr m ρ c 3).trans ((Proj0.final (V1 m ρ) c).trans ?_)
  show Proj0.proj (W1 m ρ c (Proc.devRef .tc main_arg0)) (W1 m ρ c (Proc.devRef .tc main_arg3)) (W1 m ρ c (Proc.devRef .tc main_v4)) = _
  rw [W1_arg0, W1_arg3, W1_v4]
theorem W2_arg1 (c : Dev nD) : W2 m ρ c (Proc.devRef .tc main_arg1) = m ((c : Thread nD τ).loc main_arg1) :=
  (W2_of_ne m ρ c main_arg1 (by decide)).trans (W1_arg1 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_v1 (c : Dev nD) : W2 m ρ c (Proc.devRef .tc main_v1) = ends0 (m ((c : Thread nD τ).loc main_arg2)) :=
  (W2_of_ne m ρ c main_v1 (by decide)).trans (W1_v1 m ρ c)
theorem W2_v3 (c : Dev nD) : W2 m ρ c (Proc.devRef .tc main_v3) = ends1 (m ((c : Thread nD τ).loc main_arg2)) :=
  (W2_of_ne m ρ c main_v3 (by decide)).trans (W1_v3 m ρ c)

/-! ## After the second stretch -/

theorem W3_arg1 (c : Dev nD) : W3 m ρ c (Proc.devRef .tc main_arg1) = m ((c : Thread nD τ).loc main_arg1) := by
  refine Eq.trans ?_ (W2_arg1 m ρ c)
  show StableHlo.after hostOps1 (W2 m ρ c) (Proc.devRef .tc main_arg1) = _
  after_results_simp <;> rfl
theorem W3_arg5 (c : Dev nD) : W3 m ρ c (Proc.devRef .tc main_arg5) = m ((c : Thread nD τ).loc main_arg5) := by
  refine Eq.trans ?_ (W2_arg5 m ρ c)
  show StableHlo.after hostOps1 (W2 m ρ c) (Proc.devRef .tc main_arg5) = _
  after_results_simp <;> rfl
/-- The destination bias as a row. -/
theorem W3_v6 (c : Dev nD) : W3 m ρ c (Proc.devRef .tc main_v6) = biasRow (m ((c : Thread nD τ).loc main_arg6)) := by
  refine Eq.trans ?_ (congrArg biasRow (W2_arg6 m ρ c))
  show StableHlo.after hostOps1 (W2 m ρ c) (Proc.devRef .tc main_v6) = _
  after_results_simp <;> rfl
theorem W3_v1 (c : Dev nD) : W3 m ρ c (Proc.devRef .tc main_v1) = ends0 (m ((c : Thread nD τ).loc main_arg2)) := by
  refine Eq.trans ?_ (W2_v1 m ρ c)
  show StableHlo.after hostOps1 (W2 m ρ c) (Proc.devRef .tc main_v1) = _
  after_results_simp <;> rfl
theorem W3_v3 (c : Dev nD) : W3 m ρ c (Proc.devRef .tc main_v3) = ends1 (m ((c : Thread nD τ).loc main_arg2)) := by
  refine Eq.trans ?_ (W2_v3 m ρ c)
  show StableHlo.after hostOps1 (W2 m ρ c) (Proc.devRef .tc main_v3) = _
  after_results_simp <;> rfl
theorem W3_v5 (c : Dev nD) : W3 m ρ c (Proc.devRef .tc main_v5)
    = Proj0.proj (m ((c : Thread nD τ).loc main_arg0)) (m ((c : Thread nD τ).loc main_arg3)) (biasRow (m ((c : Thread nD τ).loc main_arg4))) := by
  refine Eq.trans ?_ (W2_v5 m ρ c)
  show StableHlo.after hostOps1 (W2 m ρ c) (Proc.devRef .tc main_v5) = _
  after_results_simp <;> rfl

/-! ## After the second launch -/

/-- The destination projection table. -/
theorem W4_v7 (c : Dev nD) : W4 m ρ c (Proc.devRef .tc main_v7)
    = Proj1.proj (m ((c : Thread nD τ).loc main_arg1)) (m ((c : Thread nD τ).loc main_arg5)) (biasRow (m ((c : Thread nD τ).loc main_arg6))) := by
  refine (W4_arr m ρ c 3).trans ((Proj1.final (V3 m ρ) c).trans ?_)
  show Proj1.proj (W3 m ρ c (Proc.devRef .tc main_arg1)) (W3 m ρ c (Proc.devRef .tc main_arg5)) (W3 m ρ c (Proc.devRef .tc main_v6)) = _
  rw [W3_arg1, W3_arg5, W3_v6]
theorem W4_v1 (c : Dev nD) : W4 m ρ c (Proc.devRef .tc main_v1) = ends0 (m ((c : Thread nD τ).loc main_arg2)) :=
  (W4_of_ne m ρ c main_v1 (by decide)).trans (W3_v1 m ρ c)
theorem W4_v3 (c : Dev nD) : W4 m ρ c (Proc.devRef .tc main_v3) = ends1 (m ((c : Thread nD τ).loc main_arg2)) :=
  (W4_of_ne m ρ c main_v3 (by decide)).trans (W3_v3 m ρ c)
theorem W4_v5 (c : Dev nD) : W4 m ρ c (Proc.devRef .tc main_v5)
    = Proj0.proj (m ((c : Thread nD τ).loc main_arg0)) (m ((c : Thread nD τ).loc main_arg3)) (biasRow (m ((c : Thread nD τ).loc main_arg4))) :=
  (W4_of_ne m ρ c main_v5 (by decide)).trans (W3_v5 m ρ c)

/-! ## After the two stretches that take the rows -/

/-- The source rows, per edge. -/
theorem W5_v8 (c : Dev nD) : W5 m ρ c (Proc.devRef .tc main_v8)
    = takeRows (W4 m ρ c (Proc.devRef .tc main_v5)) (W4 m ρ c (Proc.devRef .tc main_v1)) := by
  show StableHlo.after hostOps2 (W4 m ρ c) (Proc.devRef .tc main_v8) = _
  after_results_simp
  simp only [TRef.toBuf, TRef.ofBuf, cast_eq]
  rfl
theorem W5_v3 (c : Dev nD) : W5 m ρ c (Proc.devRef .tc main_v3) = W4 m ρ c (Proc.devRef .tc main_v3) := by
  show StableHlo.after hostOps2 (W4 m ρ c) (Proc.devRef .tc main_v3) = _
  after_results_simp <;> rfl
theorem W5_v7 (c : Dev nD) : W5 m ρ c (Proc.devRef .tc main_v7) = W4 m ρ c (Proc.devRef .tc main_v7) := by
  show StableHlo.after hostOps2 (W4 m ρ c) (Proc.devRef .tc main_v7) = _
  after_results_simp <;> rfl
/-- The destination rows, per edge. -/
theorem W6_v9 (c : Dev nD) : W6 m ρ c (Proc.devRef .tc main_v9)
    = takeRows (W5 m ρ c (Proc.devRef .tc main_v7)) (W5 m ρ c (Proc.devRef .tc main_v3)) := by
  show StableHlo.after hostOps2_1 (W5 m ρ c) (Proc.devRef .tc main_v9) = _
  after_results_simp
  simp only [TRef.toBuf, TRef.ofBuf, cast_eq]
  rfl
theorem W6_v8 (c : Dev nD) : W6 m ρ c (Proc.devRef .tc main_v8) = W5 m ρ c (Proc.devRef .tc main_v8) := by
  show StableHlo.after hostOps2_1 (W5 m ρ c) (Proc.devRef .tc main_v8) = _
  after_results_simp <;> rfl
theorem W6_v3 (c : Dev nD) : W6 m ρ c (Proc.devRef .tc main_v3) = W5 m ρ c (Proc.devRef .tc main_v3) := by
  show StableHlo.after hostOps2_1 (W5 m ρ c) (Proc.devRef .tc main_v3) = _
  after_results_simp <;> rfl

/-- The source rows as the third launch finds them, of the arguments. -/
theorem W6_v8_eq (c : Dev nD) : W6 m ρ c (Proc.devRef .tc main_v8)
    = takeRows (Proj0.proj (m ((c : Thread nD τ).loc main_arg0)) (m ((c : Thread nD τ).loc main_arg3)) (biasRow (m ((c : Thread nD τ).loc main_arg4))))
        (ends0 (m ((c : Thread nD τ).loc main_arg2))) := by
  rw [W6_v8, W5_v8, W4_v5, W4_v1]
/-- The destination rows as the third launch finds them, of the arguments. -/
theorem W6_v9_eq (c : Dev nD) : W6 m ρ c (Proc.devRef .tc main_v9)
    = takeRows (Proj1.proj (m ((c : Thread nD τ).loc main_arg1)) (m ((c : Thread nD τ).loc main_arg5)) (biasRow (m ((c : Thread nD τ).loc main_arg6))))
        (ends1 (m ((c : Thread nD τ).loc main_arg2))) := by
  rw [W6_v9, W5_v7, W5_v3, W4_v7, W4_v3]
theorem W6_v3_eq (c : Dev nD) : W6 m ρ c (Proc.devRef .tc main_v3) = ends1 (m ((c : Thread nD τ).loc main_arg2)) := by
  rw [W6_v3, W5_v3, W4_v3]

/-! ## After the third launch -/

/-- The score column. -/
theorem W7_v10 (c : Dev nD) : W7 m ρ c (Proc.devRef .tc main_v10)
    = Score.rowdot (W6 m ρ c (Proc.devRef .tc main_v8)) (W6 m ρ c (Proc.devRef .tc main_v9)) :=
  (W7_arr m ρ c 2).trans (Score.final (V6 m ρ) c)
/-- The source rows are an input of the launch: it leaves them as it found them. -/
theorem W7_v8 (c : Dev nD) : W7 m ρ c (Proc.devRef .tc main_v8) = W6 m ρ c (Proc.devRef .tc main_v8) :=
  (W7_arr m ρ c 0).trans (((dat2 (V6 m ρ) c).arrAt_in 0 rfl _).trans (A_eq2 (V6 m ρ) c 0))
theorem W7_v3 (c : Dev nD) : W7 m ρ c (Proc.devRef .tc main_v3) = W6 m ρ c (Proc.devRef .tc main_v3) :=
  W7_of_ne m ρ c main_v3 (by decide)

/-! ## The result -/

set_option maxHeartbeats 4000000 in
/-- The last stretch: the messages scattered at the destination endpoints. -/
theorem W8_v28 (c : Dev nD) : W8 m ρ c (Proc.devRef .tc main_v28)
    = scatterRows (W7 m ρ c (Proc.devRef .tc main_v3)) (messages (W7 m ρ c (Proc.devRef .tc main_v8)) (W7 m ρ c (Proc.devRef .tc main_v10))) := by
  show StableHlo.after hostOps3 (W7 m ρ c) (Proc.devRef .tc main_v28) = _
  after_results_simp <;> rfl

/-- THE RESULT BUFFER at the last boundary is the program's value of the arguments as launched. -/
theorem result_eq (c : Dev nD) : W8 m ρ c (Proc.devRef .tc main_v28)
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [W8_v28, W7_v3, W7_v8, W7_v10, W6_v3_eq, W6_v8_eq, W6_v9_eq]
  rfl

end Cert.KernelIdeal.Fold

end
-- ==== Proof.PreFacts.lean ====
import proofs.«406126_j33930241638752_3_alg».proof.Pre_finite_inputs
import proofs.«406126_j33930241638752_3_alg».proof.Proof.Gen.Pre_finite_inputs
import proofs.«406126_j33930241638752_3_alg».proof.Proof.LibRealSums
import Idealize.ShloMosaic.Lib.ReduceAll
import Idealize.ShloMosaic.Lib.StableHlo.Predicate
import Idealize.ShloMosaic.PureOps.Ideal

/-! # What the precondition says of the inputs

The precondition is a conjunction, computed as one bit: every entry of each of the six float inputs is smaller in
absolute value than `+∞`, and every entry of the edge table is a node number, `0 ≤ e < 20000`. Read back: every float
entry is a real number, and every edge-table entry, read as a signed integer, lies in `[0, 20000)`. -/

noncomputable section

namespace Cert.PreFacts

open Idealize.ShloMosaic Idealize.ShloMosaic.RealSums Cert.Pre_finite_inputs

/-- The scalar shape has one index. -/
instance subsingleton_scalar_idx : Subsingleton S_.Idx := ⟨fun _ _ => funext fun d => d.elim0⟩

/-- An extended real whose absolute value `max x (-x)` is below the pattern of `+∞` is a real number: the two infinities
    both have absolute value `⊤`. -/
theorem isReal_of_abs_lt_inf (x : Ideal .f32)
    (h : FloatOps.cmpf (F := Ideal) .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | top => simp at h
  | coe r => exact ⟨r, rfl⟩

/-- One `all(|a| < +∞)` test that came out 1: every entry of `a` is a real number. -/
theorem all_isReal {s : Shape} {axes : List (Fin s.rank)} (a : FVec Ideal s .f32)
    (hb : S_.BroadcastsInDim s (![] : Fin 0 → Fin s.rank)) (hr : s.ReducesTo axes S_) (h0 : 0 < S_.numel) (j : S_.Idx)
    (e : Host.reduce IntOp.andi
        (cmpf .olt (Host.absf a) (broadcastInDim s ![] hb (constant (F := Ideal) S_ .f32 0x7F800000#32)))
        (constantI S_ 1 1#1) hr h0 j = 1#1) (i : s.Idx) : IsReal (a i) :=
  isReal_of_abs_lt_inf (a i) (Host.reduce_andi_all _ _ hr h0 j e i)

/-- The `all((a ≥ 0) & (a < 20000))` test that came out 1: every entry of `a`, read signed, lies in `[0, 20000)`. -/
theorem all_inRange {s : Shape} {axes : List (Fin s.rank)} (a : IVec s 32)
    (hb : S_.BroadcastsInDim s (![] : Fin 0 → Fin s.rank)) (hr : s.ReducesTo axes S_) (h0 : 0 < S_.numel) (j : S_.Idx)
    (e : Host.reduce IntOp.andi
        (andi (cmpi .sge a (broadcastInDim s ![] hb (constantI S_ 32 0#32)))
          (cmpi .slt a (broadcastInDim s ![] hb (constantI S_ 32 20000#32))))
        (constantI S_ 1 1#1) hr h0 j = 1#1) (i : s.Idx) : 0 ≤ (a i).toInt ∧ (a i).toInt < 20000 := by
  have hi := Host.reduce_andi_all _ _ hr h0 j e i
  obtain ⟨hge, hlt⟩ := IntOp.andi_eq_one.1 hi
  have hge' : (0#32 : BitVec 32).toInt ≤ (a i).toInt := IntOp.cmpi_sge.1 hge
  have hlt' : (a i).toInt < (20000#32 : BitVec 32).toInt := IntOp.cmpi_slt.1 hlt
  have z : (0#32 : BitVec 32).toInt = 0 := by decide
  have t : (20000#32 : BitVec 32).toInt = 20000 := by decide
  rw [z] at hge'; rw [t] at hlt'
  exact ⟨hge', hlt'⟩

/-- The precondition's bit is set only if every float entry is a real number and every edge-table entry a node number. -/
theorem decode (a0 a1 : FVec Ideal S20000x256 .f32) (a2 : IVec S2x640000 32) (a3 : FVec Ideal S256x128 .f32)
    (a4 : FVec Ideal S128 .f32) (a5 : FVec Ideal S256x128 .f32) (a6 : FVec Ideal S128 .f32)
    (h : Cert.Pre_finite_inputs.fn (F := Ideal) a0 a1 a2 a3 a4 a5 a6 = fun _ => 1#1) :
    (∀ i, IsReal (a0 i)) ∧ (∀ i, IsReal (a1 i)) ∧ (∀ i, IsReal (a3 i)) ∧ (∀ i, IsReal (a4 i)) ∧ (∀ i, IsReal (a5 i))
      ∧ (∀ i, IsReal (a6 i)) ∧ (∀ i, 0 ≤ (a2 i).toInt ∧ (a2 i).toInt < 20000) := by
  have h' := congrFun h (fun d => d.elim0)
  dsimp only [fn, fn_part1, fn_part2] at h'
  obtain ⟨h', e2⟩ := IntOp.andi_eq_one.1 h'
  obtain ⟨h', e6⟩ := IntOp.andi_eq_one.1 h'
  obtain ⟨h', e5⟩ := IntOp.andi_eq_one.1 h'
  obtain ⟨h', e4⟩ := IntOp.andi_eq_one.1 h'
  obtain ⟨h', e3⟩ := IntOp.andi_eq_one.1 h'
  obtain ⟨e0, e1⟩ := IntOp.andi_eq_one.1 h'
  exact ⟨all_isReal a0 _ _ _ _ e0, all_isReal a1 _ _ _ _ e1, all_isReal a3 _ _ _ _ e3, all_isReal a4 _ _ _ _ e4,
    all_isReal a5 _ _ _ _ e5, all_isReal a6 _ _ _ _ e6, all_inRange a2 _ _ _ _ e2⟩

end Cert.PreFacts

end
-- ==== Proof.RefProj.lean ====
import proofs.«406126_j33930241638752_3_alg».proof.Proof.Gen.ReferenceIdeal.Read
import proofs.«406126_j33930241638752_3_alg».proof.Proof.ProjValue0
import proofs.«406126_j33930241638752_3_alg».proof.Proof.ProjValue1
import proofs.«406126_j33930241638752_3_alg».proof.Proof.LibRealSums
import Idealize.ShloMosaic.Lib.Pipeline.Value
import Idealize.ShloMosaic.Lib.ValueIdx
import Idealize.ShloMosaic.Lib.ValueLayout
import Idealize.ShloMosaic.PureOps.Ideal.Laws

/-! # The reference's projection tables are the launches' projection tables

The reference computes each node table as a whole matrix product plus the bias vector broadcast over the rows. Entry by
entry that is the row of features times the column of weights plus the bias entry of the column: the function the two
projection launches leave, where the bias vector enters laid out as one row. Both tables hold real numbers when the
features, the weights and the bias do. -/

noncomputable section

namespace Cert.RefProj

open Idealize.ShloMosaic Idealize.ShloMosaic.ValueIdx Idealize.ShloMosaic.RealSums

/-- The reference's src table at an entry: the row of features times the column of weights, summed over the 256
    features, plus the bias entry of the column. -/
theorem src_apply (x0 : FVec Ideal Cert.ReferenceIdeal.S20000x256 .f32) (x3 : FVec Ideal Cert.ReferenceIdeal.S256x128 .f32)
    (x4 : FVec Ideal Cert.ReferenceIdeal.S128 .f32) (i : Cert.ReferenceIdeal.S20000x128.Idx) :
    Cert.ReferenceIdeal.Read.val_main_v3 (F := Ideal) x0 x3 x4 i
      = (∑ k : Fin 256, x0 (ix2 (⟨(i 0).val, (i 0).isLt⟩ : Fin 20000) k) * x3 (ix2 k (⟨(i 1).val, (i 1).isLt⟩ : Fin 128)))
        + x4 (ix1 (⟨(i 1).val, (i 1).isLt⟩ : Fin 128)) := by
  rw [Cert.ReferenceIdeal.Read.val_main_v3_apply, Cert.ReferenceIdeal.Read.val_main_v0_apply,
    Cert.ReferenceIdeal.Read.val_main_v2_apply, Cert.ReferenceIdeal.Read.val_main_v1_apply]
  have el : ∀ k : Fin 256, Cert.ReferenceIdeal.Read.lidx_main_v0 i k = ix2 (⟨(i 0).val, (i 0).isLt⟩ : Fin 20000) k :=
    fun k => funext fun a => Fin.ext (by match a with | ⟨0, _⟩ => rfl | ⟨1, _⟩ => rfl)
  have er : ∀ k : Fin 256, Cert.ReferenceIdeal.Read.ridx_main_v0 i k = ix2 k (⟨(i 1).val, (i 1).isLt⟩ : Fin 128) :=
    fun k => funext fun a => Fin.ext (by match a with | ⟨0, _⟩ => rfl | ⟨1, _⟩ => rfl)
  have eb : Cert.ReferenceIdeal.Read.idx_main_v1 (Cert.ReferenceIdeal.Read.idx_main_v2 i) = ix1 (⟨(i 1).val, (i 1).isLt⟩ : Fin 128) :=
    funext fun a => Fin.ext (by match a with | ⟨0, _⟩ => rfl)
  simp only [el, er, eb]
  rfl

/-- The reference's dst table at an entry: the row of features times the column of weights, summed over the 256
    features, plus the bias entry of the column. -/
theorem dst_apply (x1 : FVec Ideal Cert.ReferenceIdeal.S20000x256 .f32) (x5 : FVec Ideal Cert.ReferenceIdeal.S256x128 .f32)
    (x6 : FVec Ideal Cert.ReferenceIdeal.S128 .f32) (i : Cert.ReferenceIdeal.S20000x128.Idx) :
    Cert.ReferenceIdeal.Read.val_main_v7 (F := Ideal) x1 x5 x6 i
      = (∑ k : Fin 256, x1 (ix2 (⟨(i 0).val, (i 0).isLt⟩ : Fin 20000) k) * x5 (ix2 k (⟨(i 1).val, (i 1).isLt⟩ : Fin 128)))
        + x6 (ix1 (⟨(i 1).val, (i 1).isLt⟩ : Fin 128)) := by
  rw [Cert.ReferenceIdeal.Read.val_main_v7_apply, Cert.ReferenceIdeal.Read.val_main_v4_apply,
    Cert.ReferenceIdeal.Read.val_main_v6_apply, Cert.ReferenceIdeal.Read.val_main_v5_apply]
  have el : ∀ k : Fin 256, Cert.ReferenceIdeal.Read.lidx_main_v4 i k = ix2 (⟨(i 0).val, (i 0).isLt⟩ : Fin 20000) k :=
    fun k => funext fun a => Fin.ext (by match a with | ⟨0, _⟩ => rfl | ⟨1, _⟩ => rfl)
  have er : ∀ k : Fin 256, Cert.ReferenceIdeal.Read.ridx_main_v4 i k = ix2 k (⟨(i 1).val, (i 1).isLt⟩ : Fin 128) :=
    fun k => funext fun a => Fin.ext (by match a with | ⟨0, _⟩ => rfl | ⟨1, _⟩ => rfl)
  have eb : Cert.ReferenceIdeal.Read.idx_main_v5 (Cert.ReferenceIdeal.Read.idx_main_v6 i) = ix1 (⟨(i 1).val, (i 1).isLt⟩ : Fin 128) :=
    funext fun a => Fin.ext (by match a with | ⟨0, _⟩ => rfl)
  simp only [el, er, eb]
  rfl

/-- A vector of 128 entries laid out as one row reads, at column `q` of that row, the vector's entry `q`. -/
theorem row_apply (x : FVec Ideal Cert.ReferenceIdeal.S128 .f32) (h : Cert.KernelIdeal.S128.ShapeCasts Cert.KernelIdeal.S1x128)
    (q : Fin 128) : shapeCast Cert.KernelIdeal.S1x128 x h (ix2 (0 : Fin 1) q) = x (ix1 q) :=
  shapeCast_apply x h (ix2 (0 : Fin 1) q) (ix1 q)
    (by rewrite [Shape.rowMajor_val_two, Shape.rowMajor_val_one]; show q.val = 0 * 128 + q.val; omega)

/-- The source projection: the reference's table is the launch's, the bias laid out as a row. -/
theorem src_eq (x0 : FVec Ideal Cert.ReferenceIdeal.S20000x256 .f32) (x3 : FVec Ideal Cert.ReferenceIdeal.S256x128 .f32)
    (x4 : FVec Ideal Cert.ReferenceIdeal.S128 .f32) (h : Cert.KernelIdeal.S128.ShapeCasts Cert.KernelIdeal.S1x128) :
    Cert.ReferenceIdeal.Read.val_main_v3 (F := Ideal) x0 x3 x4
      = Cert.KernelIdeal.Proj0.proj x0 x3 (shapeCast Cert.KernelIdeal.S1x128 x4 h) := by
  funext i
  rw [src_apply]
  unfold Cert.KernelIdeal.Proj0.proj
  rw [row_apply]

/-- The destination projection: the same, for the second table. -/
theorem dst_eq (x1 : FVec Ideal Cert.ReferenceIdeal.S20000x256 .f32) (x5 : FVec Ideal Cert.ReferenceIdeal.S256x128 .f32)
    (x6 : FVec Ideal Cert.ReferenceIdeal.S128 .f32) (h : Cert.KernelIdeal.S128.ShapeCasts Cert.KernelIdeal.S1x128) :
    Cert.ReferenceIdeal.Read.val_main_v7 (F := Ideal) x1 x5 x6
      = Cert.KernelIdeal.Proj1.proj x1 x5 (shapeCast Cert.KernelIdeal.S1x128 x6 h) := by
  funext i
  rw [dst_apply]
  unfold Cert.KernelIdeal.Proj1.proj
  rw [row_apply]

/-- A projection of real features by real weights with a real bias is a table of real numbers. -/
theorem src_isReal (x0 : FVec Ideal Cert.ReferenceIdeal.S20000x256 .f32) (x3 : FVec Ideal Cert.ReferenceIdeal.S256x128 .f32)
    (x4 : FVec Ideal Cert.ReferenceIdeal.S128 .f32) (h0 : ∀ i, IsReal (x0 i)) (h3 : ∀ i, IsReal (x3 i)) (h4 : ∀ i, IsReal (x4 i))
    (i : Cert.ReferenceIdeal.S20000x128.Idx) : IsReal (Cert.ReferenceIdeal.Read.val_main_v3 (F := Ideal) x0 x3 x4 i) := by
  rw [src_apply]
  exact IsReal.add (IsReal.sum _ _ fun k _ => IsReal.mul (h0 _) (h3 _)) (h4 _)

theorem dst_isReal (x1 : FVec Ideal Cert.ReferenceIdeal.S20000x256 .f32) (x5 : FVec Ideal Cert.ReferenceIdeal.S256x128 .f32)
    (x6 : FVec Ideal Cert.ReferenceIdeal.S128 .f32) (h1 : ∀ i, IsReal (x1 i)) (h5 : ∀ i, IsReal (x5 i)) (h6 : ∀ i, IsReal (x6 i))
    (i : Cert.ReferenceIdeal.S20000x128.Idx) : IsReal (Cert.ReferenceIdeal.Read.val_main_v7 (F := Ideal) x1 x5 x6 i) := by
  rw [dst_apply]
  exact IsReal.add (IsReal.sum _ _ fun k _ => IsReal.mul (h1 _) (h5 _)) (h6 _)

/-- Every endpoint the reference reads off row 0 of the edge table is an entry of the table. -/
theorem ends0_mem (x2 : IVec Cert.ReferenceIdeal.S2x640000 32) (e : Cert.ReferenceIdeal.S640000.Idx) :
    ∃ i, Cert.ReferenceIdeal.Read.val_main_v9 (F := Ideal) x2 e = x2 i := by
  exact ⟨_, (Cert.ReferenceIdeal.Read.val_main_v9_apply x2 e).trans (Cert.ReferenceIdeal.Read.val_main_v8_apply x2 _)⟩

/-- Every endpoint the reference reads off row 1 of the edge table is an entry of the table. -/
theorem ends1_mem (x2 : IVec Cert.ReferenceIdeal.S2x640000 32) (e : Cert.ReferenceIdeal.S640000.Idx) :
    ∃ i, Cert.ReferenceIdeal.Read.val_main_v18 (F := Ideal) x2 e = x2 i := by
  exact ⟨_, (Cert.ReferenceIdeal.Read.val_main_v18_apply x2 e).trans (Cert.ReferenceIdeal.Read.val_main_v17_apply x2 _)⟩

end Cert.RefProj

end
-- ==== Proof.RefScores.lean ====
import proofs.«406126_j33930241638752_3_alg».proof.Proof.ScoreValue
import proofs.«406126_j33930241638752_3_alg».proof.Proof.LibRealSums
import Idealize.ShloMosaic.Lib.Pipeline.Value
import Idealize.ShloMosaic.Lib.ValueIdx
import Idealize.ShloMosaic.PureOps.Ideal.Laws

/-! # The reference's scores are the launch's score column

The reference multiplies the two gathered tables entry by entry and sums each row from zero, into a vector with one
score per edge. The third launch leaves the same dot products as a column. Entry `(e, 0)` of the column is entry `e` of
the vector; and the scores of real tables are real numbers. -/

noncomputable section

namespace Cert.RefScores

open Cert.KernelIdeal Idealize.ShloMosaic Idealize.ShloMosaic.ValueIdx Idealize.ShloMosaic.RealSums

/-- The reference's score of edge `e`: the sum from zero, over the 128 lanes, of the products of the two tables' entries
    in row `e`. -/
theorem score_apply (hr : S640000x128.ReducesTo [1] S640000) (h0 : 0 < S_.numel) (A B : FVec Ideal S640000x128 .f32)
    (e : S640000.Idx) :
    (Host.reduceAdd (mulf A B) (constant (F := Ideal) S_ .f32 0x00000000#32) hr h0) e
      = ∑ k : Fin 128, A (ix2 (⟨(e 0).val, (e 0).isLt⟩ : Fin 640000) k) * B (ix2 (⟨(e 0).val, (e 0).isLt⟩ : Fin 640000) k) := by
  generalize hy : mulf A B = y
  simp only [Host.reduceAdd, Ideal.hostReduceAdd_def]
  rw [Ideal.hostReduceAdd_single hr (by decide)]
  have hz : constant (F := Ideal) S_ .f32 0x00000000#32 (Shape.Idx.first h0) = 0 := Ideal.ofBits_zero_f32
  rw [hz, zero_add]
  subst hy
  refine Finset.sum_congr rfl fun k _ => ?_
  rw [mulf_apply]
  have hidx : ∀ h : S640000x128.Reduces [1] S640000, h.lift e k = ix2 (⟨(e 0).val, (e 0).isLt⟩ : Fin 640000) k := by
    intro h
    funext a
    exact Fin.ext (by match a with | ⟨0, _⟩ => rfl | ⟨1, _⟩ => rfl)
  rw [hidx]
  rfl

/-- THE SCORE COLUMN IS THE SCORE VECTOR, read at the row. -/
theorem rowdot_eq (hr : S640000x128.ReducesTo [1] S640000) (h0 : 0 < S_.numel) (A B : FVec Ideal S640000x128 .f32) :
    Cert.KernelIdeal.Score.rowdot A B
      = fun i : S640000x1.Idx => (Host.reduceAdd (mulf A B) (constant (F := Ideal) S_ .f32 0x00000000#32) hr h0)
          (ix1 (⟨(i 0).val, idx2_lt0 i⟩ : Fin 640000)) := by
  funext i
  rw [score_apply hr h0 A B]
  rfl

/-- The scores of tables of real numbers are real numbers. -/
theorem scores_isReal (hr : S640000x128.ReducesTo [1] S640000) (h0 : 0 < S_.numel) (A B : FVec Ideal S640000x128 .f32)
    (hA : ∀ i, IsReal (A i)) (hB : ∀ i, IsReal (B i)) (e : S640000.Idx) :
    IsReal ((Host.reduceAdd (mulf A B) (constant (F := Ideal) S_ .f32 0x00000000#32) hr h0) e) := by
  rw [score_apply hr h0 A B]
  exact IsReal.sum _ _ (fun k _ => IsReal.mul (hA _) (hB _))

end Cert.RefScores

end
-- ==== Proof.Bridge.lean ====
import proofs.«406126_j33930241638752_3_alg».proof.Proof.Gen.ReferenceIdeal.Read
import proofs.«406126_j33930241638752_3_alg».proof.Proof.KernelFold
import proofs.«406126_j33930241638752_3_alg».proof.Proof.RefProj
import proofs.«406126_j33930241638752_3_alg».proof.Proof.RefScores
import proofs.«406126_j33930241638752_3_alg».proof.Proof.TakeRows
import proofs.«406126_j33930241638752_3_alg».proof.Proof.SoftmaxWeights
import proofs.«406126_j33930241638752_3_alg».proof.Proof.LibRealSums

/-! # The two programs compute one function

On arguments that are real numbers, with an edge table of node numbers, the program's value (the three launches
threaded through the host operations) is the reference's last stage:

* the two projection tables are the reference's (a block product tiled over the rows is the whole product);
* for node numbers nothing is filled when the rows are taken, so the gathered rows are the reference's gathered rows;
* the score column is the reference's score vector, read at the row; the scores are real numbers, being finite sums
  of products of entries of real tables;
* so the softmax weights agree (multiplying by the reciprocal of a non-zero sum is dividing by it), the messages agree,
  and both programs scatter them by the same indices into the same zero table. -/

set_option maxRecDepth 16384

noncomputable section

namespace Cert.Bridge

open Idealize.ShloMosaic Idealize.ShloMosaic.ValueIdx Idealize.ShloMosaic.RealSums
open Cert.KernelIdeal (S20000x256 S2x640000 S256x128 S128 S20000x128 S640000 S640000x1 S640000x128 S_)
open Cert.ReferenceIdeal.Read

/-- THE VALUE OF THE PROGRAM IS THE REFERENCE'S RESULT, on real arguments and an edge table of node numbers. -/
theorem value_eq_ref (a0 a1 : FVec Ideal S20000x256 .f32) (a2 : IVec S2x640000 32) (a3 : FVec Ideal S256x128 .f32)
    (a4 : FVec Ideal S128 .f32) (a5 : FVec Ideal S256x128 .f32) (a6 : FVec Ideal S128 .f32)
    (h0 : ∀ i, IsReal (a0 i)) (h1 : ∀ i, IsReal (a1 i)) (h3 : ∀ i, IsReal (a3 i)) (h4 : ∀ i, IsReal (a4 i))
    (h5 : ∀ i, IsReal (a5 i)) (h6 : ∀ i, IsReal (a6 i)) (h2 : ∀ i, 0 ≤ (a2 i).toInt ∧ (a2 i).toInt < 20000) :
    Cert.KernelIdeal.Fold.value a0 a1 a2 a3 a4 a5 a6 = val_main_v50 (F := Ideal) a0 a1 a2 a3 a4 a5 a6 := by
  -- the projection tables
  have hP : Cert.KernelIdeal.Proj0.proj a0 a3 (Cert.KernelIdeal.Fold.biasRow a4) = val_main_v3 (F := Ideal) a0 a3 a4 :=
    (Cert.RefProj.src_eq a0 a3 a4 _).symm
  have hQ : Cert.KernelIdeal.Proj1.proj a1 a5 (Cert.KernelIdeal.Fold.biasRow a6) = val_main_v7 (F := Ideal) a1 a5 a6 :=
    (Cert.RefProj.dst_eq a1 a5 a6 _).symm
  -- the endpoint vectors, and that they hold node numbers
  have he0 : Cert.KernelIdeal.Fold.ends0 a2 = val_main_v9 (F := Ideal) a2 := rfl
  have he1 : Cert.KernelIdeal.Fold.ends1 a2 = val_main_v18 (F := Ideal) a2 := rfl
  have hr0 : ∀ e, 0 ≤ (val_main_v9 (F := Ideal) a2 e).toInt ∧ (val_main_v9 (F := Ideal) a2 e).toInt < 20000 := fun e => by
    obtain ⟨i, hi⟩ := Cert.RefProj.ends0_mem a2 e
    rw [hi]; exact h2 i
  have hr1 : ∀ e, 0 ≤ (val_main_v18 (F := Ideal) a2 e).toInt ∧ (val_main_v18 (F := Ideal) a2 e).toInt < 20000 := fun e => by
    obtain ⟨i, hi⟩ := Cert.RefProj.ends1_mem a2 e
    rw [hi]; exact h2 i
  -- the gathered rows: nothing is filled
  have hA : Cert.KernelIdeal.Fold.takeRows (val_main_v3 (F := Ideal) a0 a3 a4) (val_main_v9 (F := Ideal) a2)
      = val_main_v16 (F := Ideal) a0 a2 a3 a4 := by
    unfold Cert.KernelIdeal.Fold.takeRows
    rw [Cert.TakeRows.takeFill_eq_gather _ rfl rfl rfl rfl rfl rfl rfl _ _ _ _ _ _ _ _ _ _ _ hr0]
    rfl
  have hB : Cert.KernelIdeal.Fold.takeRows (val_main_v7 (F := Ideal) a1 a5 a6) (val_main_v18 (F := Ideal) a2)
      = val_main_v25 (F := Ideal) a1 a2 a5 a6 := by
    unfold Cert.KernelIdeal.Fold.takeRows
    rw [Cert.TakeRows.takeFill_eq_gather _ rfl rfl rfl rfl rfl rfl rfl _ _ _ _ _ _ _ _ _ _ _ hr1]
    rfl
  -- they are tables of real numbers, and so are the scores
  have hAr : ∀ i, IsReal (val_main_v16 (F := Ideal) a0 a2 a3 a4 i) := fun i =>
    Cert.TakeRows.gather_isReal _ rfl rfl rfl rfl rfl rfl rfl _ _ (Cert.RefProj.src_isReal a0 a3 a4 h0 h3 h4) i
  have hBr : ∀ i, IsReal (val_main_v25 (F := Ideal) a1 a2 a5 a6 i) := fun i =>
    Cert.TakeRows.gather_isReal _ rfl rfl rfl rfl rfl rfl rfl _ _ (Cert.RefProj.dst_isReal a1 a5 a6 h1 h5 h6) i
  have hsc := fun e => Cert.RefScores.scores_isReal Cert.ReferenceIdeal.Gen.reducesTo_S640000x128_S640000_d1
    Cert.ReferenceIdeal.Gen.h_S_ (val_main_v16 (F := Ideal) a0 a2 a3 a4) (val_main_v25 (F := Ideal) a1 a2 a5 a6) hAr hBr e
  -- assemble
  unfold Cert.KernelIdeal.Fold.value
  rw [hP, hQ, he0, he1, hA, hB]
  unfold Cert.KernelIdeal.Fold.scatterRows Cert.KernelIdeal.Fold.messages
  rw [Cert.RefScores.rowdot_eq Cert.ReferenceIdeal.Gen.reducesTo_S640000x128_S640000_d1 Cert.ReferenceIdeal.Gen.h_S_]
  rw [Cert.Softmax.weights_eq _ _ _ Cert.ReferenceIdeal.Gen.bcast_S_S1 Cert.ReferenceIdeal.Gen.bcast_S1_S640000_0
    Cert.ReferenceIdeal.Gen.bcast_S640000_S640000x1_0 Cert.ReferenceIdeal.Gen.reducesTo_S640000_S_d0 _ hsc]
  rfl

end Cert.Bridge

end
-- ==== Proof.lean ====
/- The certificate of one graph-attention message-passing layer against its jnp reference.

   THE PROGRAM: two node tables `[20000, 256]` are projected to `[20000, 128]` (features times weights plus bias) by two
   launches tiled over blocks of 2000 rows; for each of the 640000 edges the source and destination rows are taken from
   the two projection tables at the edge table's endpoints; a third launch, tiled over blocks of 4000 edges, forms each
   edge's score, the dot product of its two rows; the scores go through a softmax over ALL edges; each source row is
   scaled by its edge's weight and the scaled rows are added into a zero table at the destination endpoints. The
   reference does the same with whole-array operations.

   WHAT DIFFERS, and why it does not matter on the stated domain. (1) The program takes rows with a fill: a row whose
   index is outside the table is replaced by a fill value, where the reference clamps the index. The precondition keeps
   every endpoint a node number, `0 ≤ e < 20000`, and then nothing is filled and nothing is clamped. (2) The program
   multiplies each exponential by the reciprocal of the normaliser where the reference divides by it; on the extended
   reals that is the same as soon as the normaliser is not zero, and it is at least `exp 0 = 1` because the scores, finite
   sums of products of real numbers, are real and their maximum is attained. (3) The program's matrix products round
   their operands to a shorter format, which is the identity on extended reals; its tiling is invisible in the result.

   THE PARTS: the run of the program with its result buffer named (the launch theorem over the generated segments);
   the result buffer read back through the segments to one function of the arguments; each launch's array as one
   whole-array function; the reference's stages read at an index; the softmax in its two spellings; the row take with
   and without the fill; what the precondition says of the inputs. -/
import proofs.«406126_j33930241638752_3_alg».proof.Defs
import proofs.«406126_j33930241638752_3_alg».proof.Proof.Gen.Kernel
import proofs.«406126_j33930241638752_3_alg».proof.Proof.Gen.Kernel.Skeleton
import proofs.«406126_j33930241638752_3_alg».proof.Proof.Gen.Kernel.Launch
import proofs.«406126_j33930241638752_3_alg».proof.Proof.Gen.Kernel.Points
import proofs.«406126_j33930241638752_3_alg».proof.Proof.Gen.Kernel.Frame
import proofs.«406126_j33930241638752_3_alg».proof.Proof.Gen.KernelIdeal
import proofs.«406126_j33930241638752_3_alg».proof.Proof.Gen.KernelIdeal.Skeleton
import proofs.«406126_j33930241638752_3_alg».proof.Proof.Gen.KernelIdeal.Launch
import proofs.«406126_j33930241638752_3_alg».proof.Proof.Gen.KernelIdeal.Points
import proofs.«406126_j33930241638752_3_alg».proof.Proof.Gen.KernelIdeal.Frame
import proofs.«406126_j33930241638752_3_alg».proof.Proof.Gen.ReferenceIdeal
import proofs.«406126_j33930241638752_3_alg».proof.Proof.Gen.ReferenceIdeal.Run
import proofs.«406126_j33930241638752_3_alg».proof.Proof.Gen.ReferenceIdeal.Read
import proofs.«406126_j33930241638752_3_alg».proof.Proof.Gen.Pre_finite_inputs
import proofs.«406126_j33930241638752_3_alg».proof.Proof.RunValue
import proofs.«406126_j33930241638752_3_alg».proof.Proof.KernelFold
import proofs.«406126_j33930241638752_3_alg».proof.Proof.PreFacts
import proofs.«406126_j33930241638752_3_alg».proof.Proof.Bridge
import Idealize.ShloMosaic.Adequacy
import Idealize.ShloMosaic.Init

noncomputable section

namespace Cert.Proof

open Idealize.ShloMosaic Idealize.SL.Sem

/-- The word-level program runs and keeps its arguments: the generated frame. -/
theorem frame_k : Cert.frame_Kernel := fun m ρ _ => Cert.Kernel.Gen.frame m ρ

/-- The idealized program runs and keeps its arguments: the generated frame. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories that agree on the arguments both programs end with the program's value of those arguments: the
    program's run names its result buffer, the fold through its segments reads it as that value, and on the stated
    domain the reference's last stage is that value too. -/
theorem algebraic : Cert.algebraic_KernelIdeal_ReferenceIdeal := by
  intro m ρ m' ρ' hpre hagree
  refine ⟨fun c => Cert.KernelIdeal.Fold.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result_eq m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h3, h4, h5, h6, h2⟩ := Cert.PreFacts.decode _ _ _ _ _ _ _ (hpre c)
    rw [Cert.ReferenceIdeal.Read.val_main_v50_eq, (hagree c).1, (hagree c).2.1, (hagree c).2.2.1, (hagree c).2.2.2.1,
      (hagree c).2.2.2.2.1, (hagree c).2.2.2.2.2.1, (hagree c).2.2.2.2.2.2]
    exact (Cert.Bridge.value_eq_ref _ _ _ _ _ _ _ h0 h1 h3 h4 h5 h6 h2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
